-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel

variable [Facts]

def fn {F : FTy → Type} [FloatOps F] (main_arg0 : FVec F S8192x1 .f32) (main_arg1 : FVec F S8192x1 .f32) (main_arg2 : FVec F S8192x1 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  main_v13
-- ==== Kernel.lean ====
abbrev S8192x1 : Shape := ⟨2, ![8192, 1]⟩
abbrev S_ : Shape := ⟨0, ![]⟩
abbrev S1x8192 : Shape := ⟨2, ![1, 8192]⟩
abbrev S128x1 : Shape := ⟨2, ![128, 1]⟩
abbrev S128x8192 : Shape := ⟨2, ![128, 8192]⟩
abbrev S128 : Shape := ⟨1, ![128]⟩
abbrev S1x1 : Shape := ⟨2, ![1, 1]⟩

abbrev nBuf : Space → Nat
  | .hbm => 89
  | .vmem => 32
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S8192x1, .f32⟩
  | .hbm, ⟨3, _⟩ => ⟨S_, .f32⟩
  | .hbm, ⟨4, _⟩ => ⟨S8192x1, .f32⟩
  | .hbm, ⟨5, _⟩ => ⟨S8192x1, .i1⟩
  | .hbm, ⟨6, _⟩ => ⟨S_, .f32⟩
  | .hbm, ⟨7, _⟩ => ⟨S8192x1, .f32⟩
  | .hbm, ⟨8, _⟩ => ⟨S8192x1, .i1⟩
  | .hbm, ⟨9, _⟩ => ⟨S8192x1, .i1⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x1, .f32⟩
  | .hbm, ⟨37, _⟩ => ⟨S8192x1, .i1⟩
  | .hbm, ⟨38, _⟩ => ⟨S8192x1, .f32⟩
  | .hbm, ⟨39, _⟩ => ⟨S_, .f32⟩
  | .hbm, ⟨40, _⟩ => ⟨S_, .f32⟩
  | .hbm, ⟨41, _⟩ => ⟨S1x8192, .f32⟩
  | .hbm, ⟨42, _⟩ => ⟨S1x8192, .f32⟩
  | .hbm, ⟨43, _⟩ => ⟨S1x8192, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192x1, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S1x8192, .f32⟩
  | .hbm, ⟨59, _⟩ => ⟨S1x8192, .f32⟩
  | .hbm, ⟨60, _⟩ => ⟨S1x1, .f32⟩
  | .hbm, ⟨61, _⟩ => ⟨S1x1, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8192x1, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S8192x1, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .local _ .vmem, ⟨0, _⟩ => ⟨S128x1, .f32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S1x8192, .f32⟩
  | .local _ .vmem, ⟨5, _⟩ => ⟨S1x8192, .f32⟩
  | .local _ .vmem, ⟨6, _⟩ => ⟨S1x8192, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S1x8192, .f32⟩
  | .local _ .vmem, ⟨16, _⟩ => ⟨S1x8192, .f32⟩
  | .local _ .vmem, ⟨17, _⟩ => ⟨S1x8192, .f32⟩
  | .local _ .vmem, ⟨18, _⟩ => ⟨S128x1, .f32⟩
  | .local _ .vmem, ⟨19, _⟩ => ⟨S128x1, .f32⟩
  | .local _ .vmem, ⟨20, _⟩ => ⟨S1x8192, .f32⟩
  | .local _ .vmem, ⟨21, _⟩ => ⟨S128x1, .f32⟩
  | .local _ .vmem, ⟨22, _⟩ => ⟨S128x1, .f32⟩
  | .local _ .vmem, ⟨23, _⟩ => ⟨S1x8192, .f32⟩
  | .local _ .vmem, ⟨24, _⟩ => ⟨S1x1, .f32⟩
  | .local _ .vmem, ⟨25, _⟩ => ⟨S1x1, .f32⟩
  | .local _ .vmem, ⟨26, _⟩ => ⟨S128x1, .f32⟩
  | .local _ .vmem, ⟨27, _⟩ => ⟨S128x1, .f32⟩
  | .local _ .vmem, ⟨28, _⟩ => ⟨S128x1, .f32⟩
  | .local _ .vmem, ⟨29, _⟩ => ⟨S128x1, .f32⟩
  | .local _ .vmem, ⟨30, _⟩ => ⟨S128x1, .f32⟩
  | .local _ .vmem, ⟨31, _⟩ => ⟨S128x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43_0 : Ref sig .tc := ⟨.hbm, 62, rfl⟩
abbrev main_v43_1 : Ref sig .tc := ⟨.hbm, 63, rfl⟩
abbrev main_v43_2 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg11_1 : Ref sig .tc := ⟨.vmem, 27, rfl⟩
abbrev cc1_stg12_0 : Ref sig .tc := ⟨.vmem, 28, rfl⟩
abbrev cc1_stg12_1 : Ref sig .tc := ⟨.vmem, 29, rfl⟩
abbrev cc1_stg13_0 : Ref sig .tc := ⟨.vmem, 30, rfl⟩
abbrev cc1_stg13_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem11_1 : DmaSem sig := 27
abbrev cc1_sem12_0 : DmaSem sig := 28
abbrev cc1_sem12_1 : DmaSem sig := 29
abbrev cc1_sem13_0 : DmaSem sig := 30
abbrev cc1_sem13_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x8192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x8192 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S128x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S128x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  bcast_S_S8192x1 : S_.BroadcastsInDim S8192x1 (![] : Fin 0 → Fin S8192x1.rank)
  reducesTo_S8192x1_S_d0_1 : S8192x1.ReducesTo [0, 1] S_
  h_S_ : 0 < S_.numel
  transposes_S8192x1_S1x8192_1_0 : S8192x1.Transposes [1, 0] S1x8192
  inb_S128x1_S128x1_0_0 : ∀ a, (![0, 0] : Fin 2 → Nat) a + S128x1.size a ≤ S128x1.size a
  h_S128x1 : 0 < S128x1.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  shapeCasts_S_S1x1 : S_.ShapeCasts S1x1
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x8192 : S1x1.Broadcasts S128x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S8192x1.size a
  hwx0_0 : ∀ i : grid0.Coords, EltTy.bits .f32 = 32 ∨ (Rect.block (s := S8192x1) S128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .f32 = 32 ∨ (Rect.block (s := S8192x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S8192x1.size a
  hwx0_5 : ∀ i : grid0.Coords, EltTy.bits .f32 = 32 ∨ (Rect.block (s := S8192x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S8192x1.size a
  hwx0_6 : ∀ i : grid0.Coords, EltTy.bits .f32 = 32 ∨ (Rect.block (s := S8192x1) S128x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1.size a ≤ S8192x1.size a
  hwx1_0 : ∀ i : grid1.Coords, EltTy.bits .f32 = 32 ∨ (Rect.block (s := S8192x1) S128x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S8192x1.size a
  hwx1_1 : ∀ i : grid1.Coords, EltTy.bits .f32 = 32 ∨ (Rect.block (s := S8192x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8192.size a ≤ S1x8192.size a
  hwx1_4 : ∀ i : grid1.Coords, EltTy.bits .f32 = 32 ∨ (Rect.block (s := S1x8192) S1x8192.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S8192x1.size a
  hwx1_5 : ∀ i : grid1.Coords, EltTy.bits .f32 = 32 ∨ (Rect.block (s := S8192x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x8192.size a ≤ S1x8192.size a
  hwx1_6 : ∀ i : grid1.Coords, EltTy.bits .f32 = 32 ∨ (Rect.block (s := S1x8192) S1x8192.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S8192x1.size a
  hwx1_7 : ∀ i : grid1.Coords, EltTy.bits .f32 = 32 ∨ (Rect.block (s := S8192x1) S128x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x8192.size a ≤ S1x8192.size a
  hwx1_8 : ∀ i : grid1.Coords, EltTy.bits .f32 = 32 ∨ (Rect.block (s := S1x8192) S1x8192.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S128x1.size a ≤ S8192x1.size a
  hwx1_11 : ∀ i : grid1.Coords, EltTy.bits .f32 = 32 ∨ (Rect.block (s := S8192x1) S128x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S128x1.size a ≤ S8192x1.size a
  hwx1_12 : ∀ i : grid1.Coords, EltTy.bits .f32 = 32 ∨ (Rect.block (s := S8192x1) S128x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S128x1.size a ≤ S8192x1.size a
  hwx1_13 : ∀ i : grid1.Coords, EltTy.bits .f32 = 32 ∨ (Rect.block (s := S8192x1) S128x1.size (cc1_transform_13 i) (hinb1_13 i)).WholeWords (EltTy.packing .f32)

variable [Facts₀]

abbrev win0_0 : Pipeline.Window sig grid0 :=
  Pipeline.Window.ofSpec (Memref.whole main_arg2) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S128x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S128x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x8192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S128x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x8192.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S128x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v40) S1x8192.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v41) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v42) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v43_0) S128x1.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v43_1) S128x1.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v43_2) S128x1.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S8192x1 : Shape := ⟨2, ![8192, 1]⟩
abbrev S8192 : Shape := ⟨1, ![8192]⟩
abbrev S_ : Shape := ⟨0, ![]⟩
abbrev S1x8192 : Shape := ⟨2, ![1, 8192]⟩
abbrev S8192x8192 : Shape := ⟨2, ![8192, 8192]⟩

abbrev nBuf : Space → Nat
  | .hbm => 136
  | .vmem => 0
  | .smem => 0
  | _ => 0

abbrev hbmTy0_0 (i : Nat) : BufTy := match i % 128 with
  | 0 => ⟨S8192x1, .f32⟩
  | 1 => ⟨S8192x1, .f32⟩
  | 2 => ⟨S8192x1, .f32⟩
  | 3 => ⟨S8192, .f32⟩
  | 4 => ⟨S8192, .f32⟩
  | 5 => ⟨S8192, .f32⟩
  | 6 => ⟨S_, .f32⟩
  | 7 => ⟨S8192, .f32⟩
  | 8 => ⟨S8192, .i1⟩
  | 9 => ⟨S_, .f32⟩
  | 10 => ⟨S8192, .f32⟩
  | 11 => ⟨S8192, .i1⟩
  | 12 => ⟨S8192, .i1⟩
  | 13 => ⟨S8192, .f32⟩
  | 14 => ⟨S8192, .f32⟩
  | 15 => ⟨S_, .f32⟩
  | 16 => ⟨S_, .f32⟩
  | 17 => ⟨S8192, .f32⟩
  | 18 => ⟨S8192, .f32⟩
  | 19 => ⟨S8192, .f32⟩
  | 20 => ⟨S8192, .f32⟩
  | 21 => ⟨S_, .f32⟩
  | 22 => ⟨S_, .f32⟩
  | 23 => ⟨S8192, .f32⟩
  | 24 => ⟨S8192, .f32⟩
  | 25 => ⟨S8192, .f32⟩
  | 26 => ⟨S_, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S8192, .f32⟩
  | 40 => ⟨S8192, .i1⟩
  | 41 => ⟨S8192, .f32⟩
  | 42 => ⟨S_, .f32⟩
  | 43 => ⟨S_, .f32⟩
  | 44 => ⟨S8192x1, .f32⟩
  | 45 => ⟨S1x8192, .f32⟩
  | 46 => ⟨S8192x8192, .f32⟩
  | 47 => ⟨S8192x8192, .f32⟩
  | 48 => ⟨S8192x8192, .f32⟩
  | 49 => ⟨S8192x8192, .f32⟩
  | 50 => ⟨S8192x1, .f32⟩
  | 51 => ⟨S1x8192, .f32⟩
  | 52 => ⟨S8192x8192, .f32⟩
  | 53 => ⟨S8192x8192, .f32⟩
  | 54 => ⟨S8192x8192, .f32⟩
  | 55 => ⟨S8192x8192, .f32⟩
  | 56 => ⟨S1x8192, .f32⟩
  | 57 => ⟨S8192x8192, .f32⟩
  | 58 => ⟨S8192x8192, .f32⟩
  | 59 => ⟨S_, .f32⟩
  | 60 => ⟨S8192, .f32⟩
  | 61 => ⟨S8192, .f32⟩
  | 62 => ⟨S8192, .f32⟩
  | 63 => ⟨S1x8192, .f32⟩
  | 64 => ⟨S8192x8192, .f32⟩
  | 65 => ⟨S8192x8192, .f32⟩
  | 66 => ⟨S_, .f32⟩
  | 67 => ⟨S8192, .f32⟩
  | 68 => ⟨S8192, .f32⟩
  | 69 => ⟨S8192, .f32⟩
  | 70 => ⟨S8192, .f32⟩
  | 71 => ⟨S_, .f32⟩
  | 72 => ⟨S_, .f32⟩
  | 73 => ⟨S_, .f32⟩
  | 74 => ⟨S8192, .f32⟩
  | 75 => ⟨S_, .f32⟩
  | 76 => ⟨S_, .f32⟩
  | 77 => ⟨S_, .f32⟩
  | 78 => ⟨S1x8192, .f32⟩
  | 79 => ⟨S8192x8192, .f32⟩
  | 80 => ⟨S8192x8192, .f32⟩
  | 81 => ⟨S8192x1, .f32⟩
  | 82 => ⟨S8192x8192, .f32⟩
  | 83 => ⟨S8192x8192, .f32⟩
  | 84 => ⟨S8192x8192, .f32⟩
  | 85 => ⟨S8192x8192, .f32⟩
  | 86 => ⟨S1x8192, .f32⟩
  | 87 => ⟨S8192x8192, .f32⟩
  | 88 => ⟨S8192x8192, .f32⟩
  | 89 => ⟨S8192x1, .f32⟩
  | 90 => ⟨S8192x8192, .f32⟩
  | 91 => ⟨S8192x8192, .f32⟩
  | 92 => ⟨S8192x8192, .f32⟩
  | 93 => ⟨S8192x8192, .f32⟩
  | 94 => ⟨S8192x8192, .f32⟩
  | 95 => ⟨S1x8192, .f32⟩
  | 96 => ⟨S8192x8192, .f32⟩
  | 97 => ⟨S8192x8192, .f32⟩
  | 98 => ⟨S_, .f32⟩
  | 99 => ⟨S8192, .f32⟩
  | 100 => ⟨S8192, .f32⟩
  | 101 => ⟨S8192, .f32⟩
  | 102 => ⟨S8192x8192, .f32⟩
  | 103 => ⟨S1x8192, .f32⟩
  | 104 => ⟨S8192x8192, .f32⟩
  | 105 => ⟨S8192x8192, .f32⟩
  | 106 => ⟨S_, .f32⟩
  | 107 => ⟨S8192, .f32⟩
  | 108 => ⟨S8192, .f32⟩
  | 109 => ⟨S8192, .f32⟩
  | 110 => ⟨S8192x8192, .f32⟩
  | 111 => ⟨S1x8192, .f32⟩
  | 112 => ⟨S8192x8192, .f32⟩
  | 113 => ⟨S8192x8192, .f32⟩
  | 114 => ⟨S_, .f32⟩
  | 115 => ⟨S8192, .f32⟩
  | 116 => ⟨S8192, .f32⟩
  | 117 => ⟨S8192, .f32⟩
  | 118 => ⟨S8192, .f32⟩
  | 119 => ⟨S_, .f32⟩
  | 120 => ⟨S_, .f32⟩
  | 121 => ⟨S_, .f32⟩
  | 122 => ⟨S8192, .f32⟩
  | 123 => ⟨S_, .f32⟩
  | 124 => ⟨S_, .f32⟩
  | 125 => ⟨S_, .f32⟩
  | 126 => ⟨S8192, .f32⟩
  | 127 => ⟨S_, .f32⟩
  | _ => ⟨S8192x1, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | _ => ⟨S8192x1, .f32⟩

abbrev hbmTy (i : Nat) : BufTy := match i / 128 with
  | 0 => hbmTy0_0 i
  | 1 => hbmTy0_1 i
  | _ => ⟨S8192x1, .f32⟩

abbrev bufTy : (tb : Table) → Fin (tcTables nBuf tb) → BufTy
  | .hbm, ⟨i, _⟩ => hbmTy i
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_13 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_14 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_15 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_16 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_17 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_18 : Ref sig .tc := ⟨.hbm, 133, rfl⟩
abbrev main_v107 : Ref sig .tc := ⟨.hbm, 134, rfl⟩
abbrev main_v108 : Ref sig .tc := ⟨.hbm, 135, rfl⟩

abbrev nD : Nat := 1
abbrev τ : Topo := Topo.v7x

variable {F : FTy → Type} [FloatOps F]

class Facts₀ : Prop where
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192x8192 : S_.BroadcastsInDim S8192x8192 (![] : Fin 0 → Fin S8192x8192.rank)

variable [Facts₀]

class Facts : Prop extends Facts₀ where

variable [Facts]
-- ==== Proof.Spec.lean ====
/-
  The loss both programs compute, as plain mathematics over three profiles `o`, `t`, `x` (network output, target, mass), each a
  function of the event `k < 8192` into the extended reals.

  * The windowed cross-entropy: `bce k = −(t k · max(−100, log (o k)) + (1 − t k) · max(−100, log1p (−o k)))`, averaged over the
    events whose mass lies strictly between 120 and 130 (`win` is their 0/1 indicator).
  * The distance correlation over the background events (`bkg` is the 0/1 indicator of `t k = 0`, `cnt` their number): with
    `dist a k j = |a k − a j|`, the weighted row means `rowAvg`, their weighted mean, the doubly centred distances `cen`, and the three
    weighted means of products of centred distances, `disco = mean(A·B) / sqrt(mean(A·A) · mean(B·B))`.
  * `loss = bceLoss + 10 · disco`.

  Every sum a host program takes into a scalar starts from the constant `0.0` it is given (`total`); a sum a kernel takes over the
  lanes of a row has no such start (`rowAvg`, `prodAvg`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The number of events. -/
abbrev N : ℕ := 8192

/-- A profile: one extended real per event. -/
abbrev Prof : Type := Fin N → Ideal .f32

/-- The profile a column array `[8192, 1]` holds: its entry at each row. -/
def col (a : FVec Ideal ⟨2, ![8192, 1]⟩ .f32) : Prof := fun k => a (ix2 k (0 : Fin 1))

/-- A single-precision literal, as the extended real it denotes. -/
abbrev lit (w : BitVec 32) : Ideal .f32 := FloatOps.ofBits (F := Ideal) .f32 w

/-- A host sum into a scalar: from the literal `0.0`, over all events. -/
def total (f : Prof) : Ideal .f32 := lit 0x00000000#32 + ∑ k, f k

/-! ## The windowed cross-entropy -/

/-- The 0/1 indicator of `120 < x k < 130`. -/
def win (x : Prof) : Prof := fun k =>
  FloatOps.uitofp (F := Ideal) .f32 (IntOp.andi (FloatOps.cmpf .ogt (x k) (lit 0x42F00000#32)) (FloatOps.cmpf .olt (x k) (lit 0x43020000#32)))

/-- A logarithm clamped below at `−100`. -/
def clampLog (v : Ideal .f32) : Ideal .f32 := max (lit 0xC2C80000#32) v

/-- The cross-entropy of one event. -/
def bce (o t : Prof) : Prof := fun k =>
  -(t k * clampLog (FloatOps.hostUnary (F := Ideal) .log (o k))
      + (lit 0x3F800000#32 - t k) * clampLog (FloatOps.hostUnary (F := Ideal) .log1p (-(o k))))

/-- Its mean over the mass window. -/
def bceLoss (o t x : Prof) : Ideal .f32 := Ideal.div (total fun k => bce o t k * win x k) (total (win x))

/-! ## The distance correlation over the background -/

/-- The 0/1 indicator of `t k = 0`. -/
def bkg (t : Prof) : Prof := fun k => FloatOps.uitofp (F := Ideal) .f32 (FloatOps.cmpf .oeq (t k) (lit 0x00000000#32))

/-- The number of background events. -/
def cnt (t : Prof) : Ideal .f32 := total (bkg t)

/-- The distance between two events' values. -/
def dist (a : Prof) (k j : Fin N) : Ideal .f32 := max (a k - a j) (-(a k - a j))

/-- The background-weighted mean of an event's distances to all events. -/
def rowAvg (a t : Prof) : Prof := fun k => Ideal.div (∑ j, dist a k j * bkg t j) (cnt t)

/-- The background-weighted mean of a profile. -/
def mean (f t : Prof) : Ideal .f32 := Ideal.div (total fun k => f k * bkg t k) (cnt t)

/-- The doubly centred distance. -/
def cen (a t : Prof) (k j : Fin N) : Ideal .f32 := dist a k j - rowAvg a t j - rowAvg a t k + mean (rowAvg a t) t

/-- The background-weighted mean, over the second event, of the product of two centred distances. -/
def prodAvg (A B : Fin N → Fin N → Ideal .f32) (t : Prof) : Prof := fun k => Ideal.div (∑ j, A k j * B k j * bkg t j) (cnt t)

/-- The distance correlation of `x` and `o` over the background events of `t`. -/
def disco (x o t : Prof) : Ideal .f32 :=
  Ideal.div (mean (prodAvg (cen x t) (cen o t) t) t)
    (FloatOps.hostUnary (F := Ideal) .sqrt
      (mean (prodAvg (cen x t) (cen x t) t) t * mean (prodAvg (cen o t) (cen o t) t) t))

/-! ## The loss -/

/-- The windowed cross-entropy plus ten times the distance correlation of mass and output over the background. -/
def loss (o t x : Prof) : Ideal .f32 := bceLoss o t x + lit 0x41200000#32 * disco x o t

end Cert.Spec

end
-- ==== Proof.LibColumn.lean ====
/-
  General lemmas: a column `[n, 1]`, a row `[1, n]`, a flat `[n]` array and a scalar, read at an index, and their sums at the
  ideal instance.

  * a sum over the indices of a flat `[n]` array, of a column `[n, 1]` or of a row `[1, n]` is the sum over the one long
    coordinate;
  * the host's float sum of a column (over both axes) or of a flat array (over its axis) into a scalar is the initial value
    plus that sum;
  * a scalar spread over any shape reads the scalar; a `[1, 1]` array spread over `[a, b]` reads its one entry; a scalar
    recast as `[1, 1]` reads the scalar; a column recast as a flat array, and a column transposed to a row, read the
    column's entry.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Column

open Idealize.ShloMosaic Idealize.ShloMosaic.ValueIdx

variable {α : Type}

/-! ## Sums over the long coordinate -/

/-- The indices of a flat `[n]` array are its one coordinate. -/
def idxEquiv1 {n : ℕ} : (⟨1, ![n]⟩ : Shape).Idx ≃ Fin n where
  toFun i := i 0
  invFun a := ix1 a
  left_inv i := (eq_ix1 i).symm
  right_inv _ := rfl

/-- A sum over the indices of a flat `[n]` array is the sum over its coordinate. -/
theorem sum_flat {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows. -/
theorem sum_col {M : Type*} [AddCommMonoid M] {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one fun b => f (ix2 a b)

/-! ## The host's float sums into a scalar, at the ideal instance -/

/-- The host's sum of a column `[n, 1]` into a shape of unit axes: the initial value plus the sum over the rows. -/
theorem hostSum_col {n : ℕ} {φ : FTy} {axes : List (Fin (⟨2, ![n, 1]⟩ : Shape).rank)} {t u : Shape}
    (x : FVec Ideal ⟨2, ![n, 1]⟩ φ) (init : u.Idx → Ideal φ) (h : (⟨2, ![n, 1]⟩ : Shape).ReducesTo axes t)
    (ht : ∀ b, t.size b = 1) (hu : 0 < u.numel) (j : t.Idx) :
    Host.reduceAdd x init h hu j = init (Shape.Idx.first hu) + ∑ a : Fin n, x (ix2 a (0 : Fin 1)) := by
  simp only [Host.reduceAdd, Ideal.hostReduceAdd_def]
  rw [Ideal.hostReduceAdd_total h ht, sum_col]

/-- The host's sum of a flat `[n]` array into a shape of unit axes: the initial value plus the sum over the entries. -/
theorem hostSum_flat {n : ℕ} {φ : FTy} {axes : List (Fin (⟨1, ![n]⟩ : Shape).rank)} {t u : Shape}
    (x : FVec Ideal ⟨1, ![n]⟩ φ) (init : u.Idx → Ideal φ) (h : (⟨1, ![n]⟩ : Shape).ReducesTo axes t)
    (ht : ∀ b, t.size b = 1) (hu : 0 < u.numel) (j : t.Idx) :
    Host.reduceAdd x init h hu j = init (Shape.Idx.first hu) + ∑ a : Fin n, x (ix1 a) := by
  simp only [Host.reduceAdd, Ideal.hostReduceAdd_def]
  rw [Ideal.hostReduceAdd_total h ht, sum_flat]

/-! ## Layout operations read at an index -/

/-- A scalar spread over any shape reads the scalar. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A `[1, 1]` array spread over `[a, b]` reads its one entry. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A column `[a, 1]` recast as the flat `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` transposed to the row `[1, a]` reads, at `(0, i)`, the column's entry of row `i`. -/
theorem transpose_col_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_ix2_apply x h u i

/-- A scalar recast as `[1, 1]` reads the scalar. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  shapeCast_apply x h j ix0 (by
    have h0 : ((⟨0, ![]⟩ : Shape).rowMajor ix0).val < 1 := ((⟨0, ![]⟩ : Shape).rowMajor ix0).isLt
    have a0 : (j 0).val < 1 := (j 0).isLt
    have a1 : (j 1).val < 1 := (j 1).isLt
    rw [Shape.rowMajor_val_two]
    show ((⟨0, ![]⟩ : Shape).rowMajor ix0).val = (j 0).val * 1 + (j 1).val
    omega)

end Cert.Column

end
-- ==== Proof.HostBefore.lean ====
/-
  The kernel program's host operations before its first region, read as values at the ideal instance.

  From the three argument columns `o`, `t`, `x` the host forms, entry by entry, the mass-window indicator, the clamped cross-entropy and
  the background indicator; sums each column into a scalar from `0.0`; and transposes `x`, `o` and the background indicator into rows.
  Read at an index each is the corresponding profile of `Cert.Spec`.
-/
import proofs.«144878_j38285338476743_1_alg».proof.Proof.Gen.KernelIdeal.Frame
import proofs.«144878_j38285338476743_1_alg».proof.Proof.Spec
import proofs.«144878_j38285338476743_1_alg».proof.Proof.LibColumn
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.KernelIdeal.Host

open Cert.KernelIdeal Cert.KernelIdeal.Gen Cert.Spec

variable (m : (ℓ : Loc nD τ sig) → Buf (Elt Ideal) ℓ) (ρ : Dev nD → PrngReg)

/-! ## The host's vector terms -/

/-- The three argument columns as launched: network output, target, mass. -/
abbrev argO (c : Dev nD) : FVec Ideal S8192x1 .f32 := m ((c : Thread nD τ).loc main_arg0)
abbrev argT (c : Dev nD) : FVec Ideal S8192x1 .f32 := m ((c : Thread nD τ).loc main_arg1)
abbrev argX (c : Dev nD) : FVec Ideal S8192x1 .f32 := m ((c : Thread nD τ).loc main_arg2)

/-- The scalar `0.0`, a scalar spread down a column, a column summed into a scalar from `0.0`, a column transposed to a row. -/
abbrev zeroS : FVec Ideal S_ .f32 := constant (F := Ideal) S_ .f32 0x00000000#32
abbrev spread (s : FVec Ideal S_ .f32) : FVec Ideal S8192x1 .f32 := broadcastInDim S8192x1 ![] bcast_S_S8192x1 s
abbrev sumS (v : FVec Ideal S8192x1 .f32) : FVec Ideal S_ .f32 := Host.reduceAdd v zeroS reducesTo_S8192x1_S_d0_1 h_S_
abbrev tr (v : FVec Ideal S8192x1 .f32) : FVec Ideal S1x8192 .f32 := transpose S1x8192 [1, 0] v transposes_S8192x1_S1x8192_1_0

/-- The mass-window indicator, the background indicator and the cross-entropy, as the host computes them column-wise. -/
abbrev winV (c : Dev nD) : FVec Ideal S8192x1 .f32 :=
  uitofp (F := Ideal) .f32 (andi (cmpf .ogt (argX m c) (spread (constant (F := Ideal) S_ .f32 0x42F00000#32)))
    (cmpf .olt (argX m c) (spread (constant (F := Ideal) S_ .f32 0x43020000#32))))
abbrev bkgV (c : Dev nD) : FVec Ideal S8192x1 .f32 := uitofp (F := Ideal) .f32 (cmpf .oeq (argT m c) (spread zeroS))
abbrev bceV (c : Dev nD) : FVec Ideal S8192x1 .f32 :=
  Host.negf (addf (mulf (argT m c) (maximumf (spread (id (constant (F := Ideal) S_ .f32 0xC2C80000#32))) (Host.log (argO m c))))
    (mulf (subf (spread (constant (F := Ideal) S_ .f32 0x3F800000#32)) (argT m c))
      (maximumf (spread (id (constant (F := Ideal) S_ .f32 0xC2C80000#32))) (Host.log1p (Host.negf (argO m c))))))

/-! ## The buffers at the first region's entry -/

/-- The five stretches before the first region, unfolded to their operations at one buffer. -/
macro "w5_read" : tactic =>
  `(tactic| (show StableHlo.after hostOps0_4 (StableHlo.after hostOps0_3 (StableHlo.after hostOps0_2 (StableHlo.after hostOps0_1
               (StableHlo.after hostOps0 (W0 _ _ _))))) _ = _
             dsimp only [hostOps0, hostOps0_1, hostOps0_2, hostOps0_3, hostOps0_4]
             after_results_simp
             try rfl))

theorem W5_arg0 (c : Dev nD) : @Eq (FVec Ideal S8192x1 .f32) (W5 m ρ c (Proc.devRef .tc main_arg0)) (argO m c) := by w5_read
theorem W5_arg2 (c : Dev nD) : @Eq (FVec Ideal S8192x1 .f32) (W5 m ρ c (Proc.devRef .tc main_arg2)) (argX m c) := by w5_read
theorem W5_v23 (c : Dev nD) : @Eq (FVec Ideal S8192x1 .f32) (W5 m ρ c (Proc.devRef .tc main_v23)) (bkgV m c) := by w5_read
theorem W5_v24 (c : Dev nD) : @Eq (FVec Ideal S_ .f32) (W5 m ρ c (Proc.devRef .tc main_v24)) (sumS (bkgV m c)) := by w5_read
theorem W5_v20 (c : Dev nD) : @Eq (FVec Ideal S_ .f32) (W5 m ρ c (Proc.devRef .tc main_v20))
    (Host.divf (sumS (mulf (bceV m c) (winV m c))) (sumS (winV m c))) := by w5_read
theorem W5_v25 (c : Dev nD) : @Eq (FVec Ideal S1x8192 .f32) (W5 m ρ c (Proc.devRef .tc main_v25)) (tr (argX m c)) := by w5_read
theorem W5_v26 (c : Dev nD) : @Eq (FVec Ideal S1x8192 .f32) (W5 m ρ c (Proc.devRef .tc main_v26)) (tr (argO m c)) := by w5_read
theorem W5_v27 (c : Dev nD) : @Eq (FVec Ideal S1x8192 .f32) (W5 m ρ c (Proc.devRef .tc main_v27)) (tr (bkgV m c)) := by w5_read

/-! ## The vector terms read as profiles -/

/-- The host's quotient of two arrays reads, at an index, the quotient of the entries. -/
theorem hostDivf_apply {s : Shape} (a b : FVec Ideal s .f32) (i : s.Idx) : Host.divf a b i = Ideal.div (a i) (b i) := rfl

/-- The host's square root of an array reads, at an index, the square root of the entry. -/
theorem hostSqrt_apply {s : Shape} (a : FVec Ideal s .f32) (i : s.Idx) : Host.sqrt a i = FloatOps.hostUnary (F := Ideal) .sqrt (a i) := rfl

theorem spread_apply (s : FVec Ideal S_ .f32) (i : S8192x1.Idx) : spread s i = s ix0 :=
  Cert.Column.bcast_scalar_apply _ _ s i

/-- A column summed from `0.0` is the total of its profile. -/
theorem sumS_apply (v : FVec Ideal S8192x1 .f32) (j : S_.Idx) : sumS v j = total (col v) :=
  Cert.Column.hostSum_col v zeroS reducesTo_S8192x1_S_d0_1 (fun b => b.elim0) h_S_ j

/-- A column transposed reads, along the row, the column's entries. -/
theorem tr_apply (v : FVec Ideal S8192x1 .f32) (j : Fin 8192) : tr v (ix2 (0 : Fin 1) j) = v (ix2 j (0 : Fin 1)) :=
  Cert.Column.transpose_col_apply v _ (0 : Fin 1) j

theorem bkgV_apply (c : Dev nD) (k : Fin 8192) : bkgV m c (ix2 k (0 : Fin 1)) = bkg (col (argT m c)) k := by
  show FloatOps.uitofp (F := Ideal) .f32 (FloatOps.cmpf .oeq (argT m c (ix2 k (0 : Fin 1))) (spread zeroS (ix2 k (0 : Fin 1)))) = _
  rw [spread_apply]
  rfl

theorem winV_apply (c : Dev nD) (k : Fin 8192) : winV m c (ix2 k (0 : Fin 1)) = win (col (argX m c)) k := by
  show FloatOps.uitofp (F := Ideal) .f32 (IntOp.andi
      (FloatOps.cmpf .ogt (argX m c (ix2 k (0 : Fin 1))) (spread (constant (F := Ideal) S_ .f32 0x42F00000#32) (ix2 k (0 : Fin 1))))
      (FloatOps.cmpf .olt (argX m c (ix2 k (0 : Fin 1))) (spread (constant (F := Ideal) S_ .f32 0x43020000#32) (ix2 k (0 : Fin 1))))) = _
  rw [spread_apply, spread_apply]
  rfl

theorem bceV_apply (c : Dev nD) (k : Fin 8192) : bceV m c (ix2 k (0 : Fin 1)) = bce (col (argO m c)) (col (argT m c)) k := by
  show -(argT m c (ix2 k (0 : Fin 1)) * max (spread (id (constant (F := Ideal) S_ .f32 0xC2C80000#32)) (ix2 k (0 : Fin 1)))
          (FloatOps.hostUnary (F := Ideal) .log (argO m c (ix2 k (0 : Fin 1))))
        + (spread (constant (F := Ideal) S_ .f32 0x3F800000#32) (ix2 k (0 : Fin 1)) - argT m c (ix2 k (0 : Fin 1)))
          * max (spread (id (constant (F := Ideal) S_ .f32 0xC2C80000#32)) (ix2 k (0 : Fin 1)))
            (FloatOps.hostUnary (F := Ideal) .log1p (-(argO m c (ix2 k (0 : Fin 1)))))) = _
  rw [spread_apply, spread_apply]
  rfl

/-- At the first region's entry: the background count, the windowed cross-entropy, and the three rows. -/
theorem W5_v24_apply (c : Dev nD) (j : S_.Idx) : (W5 m ρ c (Proc.devRef .tc main_v24) : FVec Ideal S_ .f32) j = cnt (col (argT m c)) := by
  rw [W5_v24, sumS_apply]
  exact congrArg total (funext fun k => bkgV_apply m c k)

theorem W5_v20_apply (c : Dev nD) (j : S_.Idx) :
    (W5 m ρ c (Proc.devRef .tc main_v20) : FVec Ideal S_ .f32) j = bceLoss (col (argO m c)) (col (argT m c)) (col (argX m c)) := by
  rw [W5_v20, hostDivf_apply, sumS_apply, sumS_apply]
  unfold bceLoss
  refine congrArg₂ Ideal.div ?_ ?_
  · exact congrArg total (funext fun k => by
      show bceV m c (ix2 k (0 : Fin 1)) * winV m c (ix2 k (0 : Fin 1)) = _
      rw [bceV_apply, winV_apply])
  · exact congrArg total (funext fun k => winV_apply m c k)

end Cert.KernelIdeal.Host

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Pass1Value.lean ====
/-
  Region 0 (the first pallas_call) read as values, at the ideal instance.

  At grid point `t` the body holds rows `128 t … 128 t + 127` of the two column arrays `x`, `y` (`[8192, 1]`) and the whole of
  the three row arrays `x'`, `y'`, `w` (`[1, 8192]`), and stores, for each of its rows `r`,
  `Σ_j |x r − x' j| · w j` and `Σ_j |y r − y' j| · w j`. The 64 blocks tile the two result columns, so after the region
  each result column holds that sum at every row: `pairSum`.
-/
import proofs.«144878_j38285338476743_1_alg».proof.Proof.Gen.KernelIdeal.Frame
import proofs.«144878_j38285338476743_1_alg».proof.Proof.LibRowOps
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pass1

open Cert.KernelIdeal Cert.KernelIdeal.Gen

/-! ## The value: a weighted sum of distances to every entry of a row -/

/-- `Σ_j |a r − b j| · w j`: the distance from the column's entry at row `r` to every entry of the row `b`, weighted by `w`
    (the distance `|d|` is `max d (−d)` on the extended reals). -/
def pairSumAt (a : FVec Ideal S8192x1 .f32) (b w : FVec Ideal S1x8192 .f32) (r : Fin 8192) : Ideal .f32 :=
  ∑ j : Fin 8192, max (a (ix2 r (0 : Fin 1)) - b (ix2 (0 : Fin 1) j)) (-(a (ix2 r (0 : Fin 1)) - b (ix2 (0 : Fin 1) j))) * w (ix2 (0 : Fin 1) j)

/-- The column of those sums, one per row. -/
def pairSum (a : FVec Ideal S8192x1 .f32) (b w : FVec Ideal S1x8192 .f32) : FVec Ideal S8192x1 .f32 :=
  fun i => pairSumAt a b w ⟨(i 0).val, idx2_lt0 i⟩

/-! ## The body's stored value at an index -/

theorem hz : (![0, 0] : Fin 2 → Nat) = fun _ => 0 := funext fun a => by fin_cases a <;> rfl

/-- The body's first stored column, at row `p` of the block: the weighted distance sum of the block's row `p`. -/
theorem pay2_apply (x0 : Vec Ideal S128x1 .f32) (x2 x4 : Vec Ideal S1x8192 .f32) (p : Fin 128) (u : Fin 1) :
    k0_pay2 x0 x2 x4 (ix2 p u)
      = ∑ j : Fin 8192, max (x0 (ix2 p (0 : Fin 1)) - x2 (ix2 (0 : Fin 1) j)) (-(x0 (ix2 p (0 : Fin 1)) - x2 (ix2 (0 : Fin 1) j))) * x4 (ix2 (0 : Fin 1) j) := by
  unfold k0_pay2 k0_pay1
  dsimp only
  refine (Cert.RowOps.shapeCast_a_a1_apply _ _ p u).trans ?_
  refine (Cert.RowOps.laneSum_apply _ _ _ _ _ p).trans ?_
  refine Finset.sum_congr rfl fun j _ => ?_
  have e1 : broadcastTo S128x8192 x0 broadcasts_S128x1_S128x8192 (ix2 p j) = x0 (ix2 p (0 : Fin 1)) :=
    Cert.RowOps.broadcastTo_a1_ab_apply x0 _ p j
  have e2 : broadcastTo S128x8192 (shapeCast S1x8192 x2 shapeCasts_S1x8192_S1x8192) broadcasts_S1x8192_S128x8192 (ix2 p j) = x2 (ix2 (0 : Fin 1) j) :=
    Cert.RowOps.rowParam_spread_apply x2 _ _ p j
  have e3 : broadcastTo S128x8192 (shapeCast S1x8192 x4 shapeCasts_S1x8192_S1x8192) broadcasts_S1x8192_S128x8192 (ix2 p j) = x4 (ix2 (0 : Fin 1) j) :=
    Cert.RowOps.rowParam_spread_apply x4 _ _ p j
  show max (broadcastTo S128x8192 x0 broadcasts_S128x1_S128x8192 (ix2 p j) - broadcastTo S128x8192 (shapeCast S1x8192 x2 shapeCasts_S1x8192_S1x8192) broadcasts_S1x8192_S128x8192 (ix2 p j))
      (-(broadcastTo S128x8192 x0 broadcasts_S128x1_S128x8192 (ix2 p j) - broadcastTo S128x8192 (shapeCast S1x8192 x2 shapeCasts_S1x8192_S1x8192) broadcasts_S1x8192_S128x8192 (ix2 p j)))
      * broadcastTo S128x8192 (shapeCast S1x8192 x4 shapeCasts_S1x8192_S1x8192) broadcasts_S1x8192_S128x8192 (ix2 p j) = _
  rw [e1, e2, e3]

/-- The second stored column is the same function of the other column and row. -/
theorem pay3_apply (x1 : Vec Ideal S128x1 .f32) (x3 x4 : Vec Ideal S1x8192 .f32) (p : Fin 128) (u : Fin 1) :
    k0_pay3 x1 x3 x4 (ix2 p u)
      = ∑ j : Fin 8192, max (x1 (ix2 p (0 : Fin 1)) - x3 (ix2 (0 : Fin 1) j)) (-(x1 (ix2 p (0 : Fin 1)) - x3 (ix2 (0 : Fin 1) j))) * x4 (ix2 (0 : Fin 1) j) := by
  unfold k0_pay3 k0_pay1
  dsimp only
  refine (Cert.RowOps.shapeCast_a_a1_apply _ _ p u).trans ?_
  refine (Cert.RowOps.laneSum_apply _ _ _ _ _ p).trans ?_
  refine Finset.sum_congr rfl fun j _ => ?_
  have e1 : broadcastTo S128x8192 x1 broadcasts_S128x1_S128x8192 (ix2 p j) = x1 (ix2 p (0 : Fin 1)) :=
    Cert.RowOps.broadcastTo_a1_ab_apply x1 _ p j
  have e2 : broadcastTo S128x8192 (shapeCast S1x8192 x3 shapeCasts_S1x8192_S1x8192) broadcasts_S1x8192_S128x8192 (ix2 p j) = x3 (ix2 (0 : Fin 1) j) :=
    Cert.RowOps.rowParam_spread_apply x3 _ _ p j
  have e3 : broadcastTo S128x8192 (shapeCast S1x8192 x4 shapeCasts_S1x8192_S1x8192) broadcasts_S1x8192_S128x8192 (ix2 p j) = x4 (ix2 (0 : Fin 1) j) :=
    Cert.RowOps.rowParam_spread_apply x4 _ _ p j
  show max (broadcastTo S128x8192 x1 broadcasts_S128x1_S128x8192 (ix2 p j) - broadcastTo S128x8192 (shapeCast S1x8192 x3 shapeCasts_S1x8192_S1x8192) broadcasts_S1x8192_S128x8192 (ix2 p j))
      (-(broadcastTo S128x8192 x1 broadcasts_S128x1_S128x8192 (ix2 p j) - broadcastTo S128x8192 (shapeCast S1x8192 x3 shapeCasts_S1x8192_S1x8192) broadcasts_S1x8192_S128x8192 (ix2 p j)))
      * broadcastTo S128x8192 (shapeCast S1x8192 x4 shapeCasts_S1x8192_S1x8192) broadcasts_S1x8192_S128x8192 (ix2 p j) = _
  rw [e1, e2, e3]

/-- What the body leaves in each output buffer is its one stored value. -/
theorem out5_eq (x0 x1 : Vec Ideal S128x1 .f32) (x2 x3 x4 : Vec Ideal S1x8192 .f32) : out0_5 x0 x1 x2 x3 x4 = k0_pay2 x0 x2 x4 := by
  unfold out0_5
  rw [View.canon_unit_zero hz]
  simp only [View.ld_unit_zero (S := S128x1) hz, View.ld_unit_zero (S := S1x8192) hz]

theorem out6_eq (x0 x1 : Vec Ideal S128x1 .f32) (x2 x3 x4 : Vec Ideal S1x8192 .f32) : out0_6 x0 x1 x2 x3 x4 = k0_pay3 x1 x3 x4 := by
  unfold out0_6
  rw [View.canon_unit_zero hz]
  simp only [View.ld_unit_zero (S := S128x1) hz, View.ld_unit_zero (S := S1x8192) hz]

/-! ## The blocks: rows of the columns, the whole of the rows -/

variable (V : (c : Dev nD) → (b : Ref sig .tc) → Buf (Elt Ideal) ((c : Thread nD τ).loc b))

/-- The five arrays the region reads, as it finds them. -/
abbrev Xcol (c : Dev nD) : FVec Ideal S8192x1 .f32 := V c main_arg2
abbrev Ycol (c : Dev nD) : FVec Ideal S8192x1 .f32 := V c main_arg0
abbrev Xrow (c : Dev nD) : FVec Ideal S1x8192 .f32 := V c main_v25
abbrev Yrow (c : Dev nD) : FVec Ideal S1x8192 .f32 := V c main_v26
abbrev Wrow (c : Dev nD) : FVec Ideal S1x8192 .f32 := V c main_v27

/-- Their blocks at point `t`. -/
abbrev xblk (c : Dev nD) (t : Fin cfg0.N) : Vec Ideal S128x1 .f32 := iblk0 V c 0 t
abbrev yblk (c : Dev nD) (t : Fin cfg0.N) : Vec Ideal S128x1 .f32 := iblk0 V c 1 t
abbrev xrblk (c : Dev nD) (t : Fin cfg0.N) : Vec Ideal S1x8192 .f32 := iblk0 V c 2 t
abbrev yrblk (c : Dev nD) (t : Fin cfg0.N) : Vec Ideal S1x8192 .f32 := iblk0 V c 3 t
abbrev wrblk (c : Dev nD) (t : Fin cfg0.N) : Vec Ideal S1x8192 .f32 := iblk0 V c 4 t

/-- The printed index maps over the grid: the column windows move down one block per point, the row windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 64 := by
  have h : t.val < cfg0.N := t.isLt
  have e : cfg0.N = 64 := N_0
  omega

/-- Row `p` of the first column's block at point `t` is row `128 t + p` of the column. -/
theorem xblk_apply (c : Dev nD) (t : Fin cfg0.N) (p : Fin 128) (u : Fin 1) :
    xblk V c t (ix2 p u) = Xcol V c (ix2 (⟨128 * t.val + p.val, by have := t_lt t; have := p.isLt; omega⟩ : Fin 8192) (0 : Fin 1)) := by
  obtain ⟨e0, e1, -⟩ := idx_facts t
  show iblk0 V c 0 t (ix2 p u) = _
  unfold iblk0
  rw [View.read_apply]
  show V c main_arg2 _ = V c main_arg2 _
  congr 1
  funext a
  apply Fin.ext
  match a with
  | ⟨0, _⟩ => show win0_0.index t (0 : Fin 2) * 128 + 1 * p.val = 128 * t.val + p.val; rw [e0]; omega
  | ⟨1, _⟩ => show win0_0.index t (1 : Fin 2) * 1 + 1 * u.val = 0; rw [e1]; have := u.isLt; omega

theorem yblk_apply (c : Dev nD) (t : Fin cfg0.N) (p : Fin 128) (u : Fin 1) :
    yblk V c t (ix2 p u) = Ycol V c (ix2 (⟨128 * t.val + p.val, by have := t_lt t; have := p.isLt; omega⟩ : Fin 8192) (0 : Fin 1)) := by
  obtain ⟨-, -, e0, e1, -⟩ := idx_facts t
  show iblk0 V c 1 t (ix2 p u) = _
  unfold iblk0
  rw [View.read_apply]
  show V c main_arg0 _ = V c main_arg0 _
  congr 1
  funext a
  apply Fin.ext
  match a with
  | ⟨0, _⟩ => show win0_1.index t (0 : Fin 2) * 128 + 1 * p.val = 128 * t.val + p.val; rw [e0]; omega
  | ⟨1, _⟩ => show win0_1.index t (1 : Fin 2) * 1 + 1 * u.val = 0; rw [e1]; have := u.isLt; omega

/-- Each row window's block is the whole row. -/
theorem xrblk_apply (c : Dev nD) (t : Fin cfg0.N) (u : Fin 1) (j : Fin 8192) :
    xrblk V c t (ix2 u j) = Xrow V c (ix2 (0 : Fin 1) j) := by
  obtain ⟨-, -, -, -, e0, e1, -⟩ := idx_facts t
  show iblk0 V c 2 t (ix2 u j) = _
  unfold iblk0
  rw [View.read_apply]
  show V c main_v25 _ = V c main_v25 _
  congr 1
  funext a
  apply Fin.ext
  match a with
  | ⟨0, _⟩ => show win0_2.index t (0 : Fin 2) * 1 + 1 * u.val = 0; rw [e0]; have := u.isLt; omega
  | ⟨1, _⟩ => show win0_2.index t (1 : Fin 2) * 8192 + 1 * j.val = j.val; rw [e1]; omega

theorem yrblk_apply (c : Dev nD) (t : Fin cfg0.N) (u : Fin 1) (j : Fin 8192) :
    yrblk V c t (ix2 u j) = Yrow V c (ix2 (0 : Fin 1) j) := by
  obtain ⟨-, -, -, -, -, -, e0, e1, -⟩ := idx_facts t
  show iblk0 V c 3 t (ix2 u j) = _
  unfold iblk0
  rw [View.read_apply]
  show V c main_v26 _ = V c main_v26 _
  congr 1
  funext a
  apply Fin.ext
  match a with
  | ⟨0, _⟩ => show win0_3.index t (0 : Fin 2) * 1 + 1 * u.val = 0; rw [e0]; have := u.isLt; omega
  | ⟨1, _⟩ => show win0_3.index t (1 : Fin 2) * 8192 + 1 * j.val = j.val; rw [e1]; omega

theorem wrblk_apply (c : Dev nD) (t : Fin cfg0.N) (u : Fin 1) (j : Fin 8192) :
    wrblk V c t (ix2 u j) = Wrow V c (ix2 (0 : Fin 1) j) := by
  obtain ⟨-, -, -, -, -, -, -, -, e0, e1, -⟩ := idx_facts t
  show iblk0 V c 4 t (ix2 u j) = _
  unfold iblk0
  rw [View.read_apply]
  show V c main_v27 _ = V c main_v27 _
  congr 1
  funext a
  apply Fin.ext
  match a with
  | ⟨0, _⟩ => show win0_4.index t (0 : Fin 2) * 1 + 1 * u.val = 0; rw [e0]; have := u.isLt; omega
  | ⟨1, _⟩ => show win0_4.index t (1 : Fin 2) * 8192 + 1 * j.val = j.val; rw [e1]; omega

/-! ## What each point writes back, and the arrays after the region -/

/-- Point `t` writes back block `t` of the column of weighted distance sums. -/
theorem flushed5_eq (c : Dev nD) (t : Fin cfg0.N) :
    (dat0 V c).flushed 5 t = ((cfg0.win 5).blk t).view.read (Elt Ideal) (pairSum (Xcol V c) (Xrow V c) (Wrow V c)) := by
  obtain ⟨-, -, -, -, -, -, -, -, -, -, e0, e1, -⟩ := idx_facts t
  show (cfg0.win 5).cut (grid0.coords t) ((dat0 V c).after 5 t) = _
  rw [after0_5, out5_eq]
  funext y
  obtain ⟨p, u, rfl⟩ : ∃ (p : Fin 128) (u : Fin 1), y = ix2 p u := ⟨y 0, y 1, eq_ix2 y⟩
  show k0_pay2 (xblk V c t) (xrblk V c t) (wrblk V c t) (ix2 p u) = pairSum (Xcol V c) (Xrow V c) (Wrow V c) (((cfg0.win 5).blk t).view.emb (ix2 p u))
  refine (pay2_apply (xblk V c t) (xrblk V c t) (wrblk V c t) p u).trans ?_
  unfold pairSum pairSumAt
  refine Finset.sum_congr rfl fun j _ => ?_
  rw [xblk_apply, xrblk_apply, wrblk_apply]
  have hr : (⟨128 * t.val + p.val, by have := t_lt t; have := p.isLt; omega⟩ : Fin 8192)
      = ⟨((((cfg0.win 5).blk t).view.emb (ix2 p u)) 0).val, idx2_lt0 _⟩ := by
    apply Fin.ext
    show 128 * t.val + p.val = win0_5.index t (0 : Fin 2) * 128 + 1 * p.val
    rw [e0]; omega
  rw [hr]

theorem flushed6_eq (c : Dev nD) (t : Fin cfg0.N) :
    (dat0 V c).flushed 6 t = ((cfg0.win 6).blk t).view.read (Elt Ideal) (pairSum (Ycol V c) (Yrow V c) (Wrow V c)) := by
  obtain ⟨-, -, -, -, -, -, -, -, -, -, -, -, e0, e1⟩ := idx_facts t
  show (cfg0.win 6).cut (grid0.coords t) ((dat0 V c).after 6 t) = _
  rw [after0_6, out6_eq]
  funext y
  obtain ⟨p, u, rfl⟩ : ∃ (p : Fin 128) (u : Fin 1), y = ix2 p u := ⟨y 0, y 1, eq_ix2 y⟩
  show k0_pay3 (yblk V c t) (yrblk V c t) (wrblk V c t) (ix2 p u) = pairSum (Ycol V c) (Yrow V c) (Wrow V c) (((cfg0.win 6).blk t).view.emb (ix2 p u))
  refine (pay3_apply (yblk V c t) (yrblk V c t) (wrblk V c t) p u).trans ?_
  unfold pairSum pairSumAt
  refine Finset.sum_congr rfl fun j _ => ?_
  rw [yblk_apply, yrblk_apply, wrblk_apply]
  have hr : (⟨128 * t.val + p.val, by have := t_lt t; have := p.isLt; omega⟩ : Fin 8192)
      = ⟨((((cfg0.win 6).blk t).view.emb (ix2 p u)) 0).val, idx2_lt0 _⟩ := by
    apply Fin.ext
    show 128 * t.val + p.val = win0_6.index t (0 : Fin 2) * 128 + 1 * p.val
    rw [e0]; omega
  rw [hr]

/-- Row `r` of a result column lies in the block of point `r / 128`. -/
theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  let t : Fin cfg0.N := ⟨(i 0).val / 128, by rw [show cfg0.N = 64 from N_0]; omega⟩
  obtain ⟨-, -, -, -, -, -, -, -, -, -, e0, e1, -⟩ := idx_facts t
  have ht : t.val = (i 0).val / 128 := rfl
  refine ⟨t, flush0_5 t, ?_⟩
  show i ∈ ((View.whole main_v28_0).slice (win0_5.rect t)).set
  rw [View.set_slice_whole, Rect.mem_set_unit]
  intro a
  match a with
  | ⟨0, _⟩ => show win0_5.index t (0 : Fin 2) * 128 ≤ (i 0).val ∧ (i 0).val < win0_5.index t (0 : Fin 2) * 128 + 128; rw [e0, ht]; omega
  | ⟨1, _⟩ => show win0_5.index t (1 : Fin 2) * 1 ≤ (i 1).val ∧ (i 1).val < win0_5.index t (1 : Fin 2) * 1 + 1; rw [e1]; omega

theorem cover6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  let t : Fin cfg0.N := ⟨(i 0).val / 128, by rw [show cfg0.N = 64 from N_0]; omega⟩
  obtain ⟨-, -, -, -, -, -, -, -, -, -, -, -, e0, e1⟩ := idx_facts t
  have ht : t.val = (i 0).val / 128 := rfl
  refine ⟨t, flush0_6 t, ?_⟩
  show i ∈ ((View.whole main_v28_1).slice (win0_6.rect t)).set
  rw [View.set_slice_whole, Rect.mem_set_unit]
  intro a
  match a with
  | ⟨0, _⟩ => show win0_6.index t (0 : Fin 2) * 128 ≤ (i 0).val ∧ (i 0).val < win0_6.index t (0 : Fin 2) * 128 + 128; rw [e0, ht]; omega
  | ⟨1, _⟩ => show win0_6.index t (1 : Fin 2) * 1 ≤ (i 1).val ∧ (i 1).val < win0_6.index t (1 : Fin 2) * 1 + 1; rw [e1]; omega

/-- After the region the first result column holds, at every row, the weighted distance sum of `x`. -/
theorem final5 (c : Dev nD) : (dat0 V c).arrAt 5 cfg0.N = pairSum (Xcol V c) (Xrow V c) (Wrow V c) :=
  (dat0 V c).arrAt_eq_of_cover 5 (pairSum (Xcol V c) (Xrow V c) (Wrow V c)) (fun t _ => flushed5_eq V c t) cover5

/-- … and the second, that of `y`. -/
theorem final6 (c : Dev nD) : (dat0 V c).arrAt 6 cfg0.N = pairSum (Ycol V c) (Yrow V c) (Wrow V c) :=
  (dat0 V c).arrAt_eq_of_cover 6 (pairSum (Ycol V c) (Yrow V c) (Wrow V c)) (fun t _ => flushed6_eq V c t) cover6

end Cert.KernelIdeal.Pass1

end
-- ==== Proof.HostBetween.lean ====
/-
  Between the kernel program's two regions, read as values at the ideal instance.

  The first region leaves its inputs as they were and the two columns of weighted distance sums. The host divides each by the background
  count (the row means `rowAvg`), takes each column's background-weighted mean (`mean`), transposes the two columns of row means into
  rows and recasts the two means as `[1, 1]` arrays: what the second region reads.
-/
import proofs.«144878_j38285338476743_1_alg».proof.Proof.HostBefore
import proofs.«144878_j38285338476743_1_alg».proof.Proof.Pass1Value

set_option maxRecDepth 16384

noncomputable section

open Idealize.ShloMosaic Idealize.ShloMosaic.TcCoe Idealize.SL.Sem Idealize.ShloMosaic.ValueIdx Idealize.ShloMosaic.StableHlo

namespace Cert.KernelIdeal.Host

open Cert.KernelIdeal Cert.KernelIdeal.Gen Cert.Spec

variable (m : (ℓ : Loc nD τ sig) → Buf (Elt Ideal) ℓ) (ρ : Dev nD → PrngReg)

/-! ## At the first region's exit -/

/-- The region's input arrays are as the region found them. -/
theorem W6_arg2 (c : Dev nD) : @Eq (FVec Ideal S8192x1 .f32) (W6 m ρ c (Proc.devRef .tc main_arg2)) (argX m c) :=
  (W6_arr m ρ c 0).trans (((dat0 (V5 m ρ) c).arrAt_in 0 rfl _).trans ((A_eq0 (V5 m ρ) c 0).trans (W5_arg2 m ρ c)))
theorem W6_arg0 (c : Dev nD) : @Eq (FVec Ideal S8192x1 .f32) (W6 m ρ c (Proc.devRef .tc main_arg0)) (argO m c) :=
  (W6_arr m ρ c 1).trans (((dat0 (V5 m ρ) c).arrAt_in 1 rfl _).trans ((A_eq0 (V5 m ρ) c 1).trans (W5_arg0 m ρ c)))
theorem W6_v25 (c : Dev nD) : @Eq (FVec Ideal S1x8192 .f32) (W6 m ρ c (Proc.devRef .tc main_v25)) (tr (argX m c)) :=
  (W6_arr m ρ c 2).trans (((dat0 (V5 m ρ) c).arrAt_in 2 rfl _).trans ((A_eq0 (V5 m ρ) c 2).trans (W5_v25 m ρ c)))
theorem W6_v26 (c : Dev nD) : @Eq (FVec Ideal S1x8192 .f32) (W6 m ρ c (Proc.devRef .tc main_v26)) (tr (argO m c)) :=
  (W6_arr m ρ c 3).trans (((dat0 (V5 m ρ) c).arrAt_in 3 rfl _).trans ((A_eq0 (V5 m ρ) c 3).trans (W5_v26 m ρ c)))
theorem W6_v27 (c : Dev nD) : @Eq (FVec Ideal S1x8192 .f32) (W6 m ρ c (Proc.devRef .tc main_v27)) (tr (bkgV m c)) :=
  (W6_arr m ρ c 4).trans (((dat0 (V5 m ρ) c).arrAt_in 4 rfl _).trans ((A_eq0 (V5 m ρ) c 4).trans (W5_v27 m ρ c)))

/-- The buffers the region does not touch are as before it. -/
theorem W6_v23 (c : Dev nD) : @Eq (FVec Ideal S8192x1 .f32) (W6 m ρ c (Proc.devRef .tc main_v23)) (bkgV m c) :=
  (W6_of_ne m ρ c main_v23 (by decide)).trans (W5_v23 m ρ c)
theorem W6_v24 (c : Dev nD) : @Eq (FVec Ideal S_ .f32) (W6 m ρ c (Proc.devRef .tc main_v24)) (sumS (bkgV m c)) :=
  (W6_of_ne m ρ c main_v24 (by decide)).trans (W5_v24 m ρ c)
theorem W6_v20 (c : Dev nD) : @Eq (FVec Ideal S_ .f32) (W6 m ρ c (Proc.devRef .tc main_v20)) (W5 m ρ c (Proc.devRef .tc main_v20)) :=
  W6_of_ne m ρ c main_v20 (by decide)

/-- The weighted distance sum of a column against its own transpose and the transposed background indicator, at row `k`, is the sum
    over events of the distance times the indicator. -/
theorem pairSum_apply (a : FVec Ideal S8192x1 .f32) (c : Dev nD) (k : Fin 8192) :
    Cert.KernelIdeal.Pass1.pairSum a (tr a) (tr (bkgV m c)) (ix2 k (0 : Fin 1)) = ∑ j, dist (col a) k j * bkg (col (argT m c)) j := by
  show Cert.KernelIdeal.Pass1.pairSumAt a (tr a) (tr (bkgV m c)) k = _
  unfold Cert.KernelIdeal.Pass1.pairSumAt
  refine Finset.sum_congr rfl fun j _ => ?_
  rw [tr_apply, tr_apply]
  show dist (col a) k j * col (bkgV m c) j = _
  exact congrArg (dist (col a) k j * ·) (bkgV_apply m c j)

/-- The two result columns of the first region. -/
theorem W6_v28_0 (c : Dev nD) : @Eq (FVec Ideal S8192x1 .f32) (W6 m ρ c (Proc.devRef .tc main_v28_0))
    (Cert.KernelIdeal.Pass1.pairSum (argX m c) (tr (argX m c)) (tr (bkgV m c))) := by
  refine (W6_arr m ρ c 5).trans ((Cert.KernelIdeal.Pass1.final5 (V5 m ρ) c).trans ?_)
  show Cert.KernelIdeal.Pass1.pairSum (W5 m ρ c (Proc.devRef .tc main_arg2)) (W5 m ρ c (Proc.devRef .tc main_v25)) (W5 m ρ c (Proc.devRef .tc main_v27)) = _
  rw [W5_arg2, W5_v25, W5_v27]
theorem W6_v28_1 (c : Dev nD) : @Eq (FVec Ideal S8192x1 .f32) (W6 m ρ c (Proc.devRef .tc main_v28_1))
    (Cert.KernelIdeal.Pass1.pairSum (argO m c) (tr (argO m c)) (tr (bkgV m c))) := by
  refine (W6_arr m ρ c 6).trans ((Cert.KernelIdeal.Pass1.final6 (V5 m ρ) c).trans ?_)
  show Cert.KernelIdeal.Pass1.pairSum (W5 m ρ c (Proc.devRef .tc main_arg0)) (W5 m ρ c (Proc.devRef .tc main_v26)) (W5 m ρ c (Proc.devRef .tc main_v27)) = _
  rw [W5_arg0, W5_v26, W5_v27]

/-! ## At the second region's entry -/

/-- A column divided by the background count, and a column's background-weighted mean, as the host computes them. -/
abbrev divN (P : FVec Ideal S8192x1 .f32) (c : Dev nD) : FVec Ideal S8192x1 .f32 := Host.divf P (spread (sumS (bkgV m c)))
abbrev meanV (Q : FVec Ideal S8192x1 .f32) (c : Dev nD) : FVec Ideal S_ .f32 :=
  Host.divf (sumS (mulf Q (bkgV m c))) (sumS (bkgV m c))

/-- The column of row means of a column `a`, and its background-weighted mean. -/
abbrev avgV (a : FVec Ideal S8192x1 .f32) (c : Dev nD) : FVec Ideal S8192x1 .f32 :=
  divN m (Cert.KernelIdeal.Pass1.pairSum a (tr a) (tr (bkgV m c))) c
abbrev totV (a : FVec Ideal S8192x1 .f32) (c : Dev nD) : FVec Ideal S_ .f32 := meanV m (avgV m a c) c

/-- The operations between the regions, unfolded at one buffer; what they read of the first region's exit is then named. -/
macro "w7_read" : tactic =>
  `(tactic| (show StableHlo.after hostOps1 (W6 _ _ _) _ = _
             dsimp only [hostOps1]
             after_results_simp
             try rfl))

theorem W7_arg2 (c : Dev nD) : @Eq (FVec Ideal S8192x1 .f32) (W7 m ρ c (Proc.devRef .tc main_arg2)) (argX m c) := by
  refine Eq.trans ?_ (W6_arg2 m ρ c); w7_read
theorem W7_arg0 (c : Dev nD) : @Eq (FVec Ideal S8192x1 .f32) (W7 m ρ c (Proc.devRef .tc main_arg0)) (argO m c) := by
  refine Eq.trans ?_ (W6_arg0 m ρ c); w7_read
theorem W7_v25 (c : Dev nD) : @Eq (FVec Ideal S1x8192 .f32) (W7 m ρ c (Proc.devRef .tc main_v25)) (tr (argX m c)) := by
  refine Eq.trans ?_ (W6_v25 m ρ c); w7_read
theorem W7_v26 (c : Dev nD) : @Eq (FVec Ideal S1x8192 .f32) (W7 m ρ c (Proc.devRef .tc main_v26)) (tr (argO m c)) := by
  refine Eq.trans ?_ (W6_v26 m ρ c); w7_read
theorem W7_v27 (c : Dev nD) : @Eq (FVec Ideal S1x8192 .f32) (W7 m ρ c (Proc.devRef .tc main_v27)) (tr (bkgV m c)) := by
  refine Eq.trans ?_ (W6_v27 m ρ c); w7_read
theorem W7_v23 (c : Dev nD) : @Eq (FVec Ideal S8192x1 .f32) (W7 m ρ c (Proc.devRef .tc main_v23)) (bkgV m c) := by
  refine Eq.trans ?_ (W6_v23 m ρ c); w7_read
theorem W7_v24 (c : Dev nD) : @Eq (FVec Ideal S_ .f32) (W7 m ρ c (Proc.devRef .tc main_v24)) (sumS (bkgV m c)) := by
  refine Eq.trans ?_ (W6_v24 m ρ c); w7_read
theorem W7_v20 (c : Dev nD) : @Eq (FVec Ideal S_ .f32) (W7 m ρ c (Proc.devRef .tc main_v20)) (W5 m ρ c (Proc.devRef .tc main_v20)) := by
  refine Eq.trans ?_ (W6_v20 m ρ c); w7_read

theorem W7_v30 (c : Dev nD) : @Eq (FVec Ideal S8192x1 .f32) (W7 m ρ c (Proc.devRef .tc main_v30)) (avgV m (argX m c) c) := by
  have e : @Eq (FVec Ideal S8192x1 .f32) (W7 m ρ c (Proc.devRef .tc main_v30))
      (Host.divf (W6 m ρ c (Proc.devRef .tc main_v28_0)) (spread (W6 m ρ c (Proc.devRef .tc main_v24)))) := by w7_read
  rw [e, W6_v28_0, W6_v24]
theorem W7_v32 (c : Dev nD) : @Eq (FVec Ideal S8192x1 .f32) (W7 m ρ c (Proc.devRef .tc main_v32)) (avgV m (argO m c) c) := by
  have e : @Eq (FVec Ideal S8192x1 .f32) (W7 m ρ c (Proc.devRef .tc main_v32))
      (Host.divf (W6 m ρ c (Proc.devRef .tc main_v28_1)) (spread (W6 m ρ c (Proc.devRef .tc main_v24)))) := by w7_read
  rw [e, W6_v28_1, W6_v24]
theorem W7_v39 (c : Dev nD) : @Eq (FVec Ideal S1x8192 .f32) (W7 m ρ c (Proc.devRef .tc main_v39)) (tr (avgV m (argX m c) c)) := by
  have e : @Eq (FVec Ideal S1x8192 .f32) (W7 m ρ c (Proc.devRef .tc main_v39))
      (tr (Host.divf (W6 m ρ c (Proc.devRef .tc main_v28_0)) (spread (W6 m ρ c (Proc.devRef .tc main_v24))))) := by w7_read
  rw [e, W6_v28_0, W6_v24]
theorem W7_v40 (c : Dev nD) : @Eq (FVec Ideal S1x8192 .f32) (W7 m ρ c (Proc.devRef .tc main_v40)) (tr (avgV m (argO m c) c)) := by
  have e : @Eq (FVec Ideal S1x8192 .f32) (W7 m ρ c (Proc.devRef .tc main_v40))
      (tr (Host.divf (W6 m ρ c (Proc.devRef .tc main_v28_1)) (spread (W6 m ρ c (Proc.devRef .tc main_v24))))) := by w7_read
  rw [e, W6_v28_1, W6_v24]
theorem W7_v41 (c : Dev nD) : @Eq (FVec Ideal S1x1 .f32) (W7 m ρ c (Proc.devRef .tc main_v41))
    (shapeCast S1x1 (totV m (argX m c) c) shapeCasts_S_S1x1) := by
  have e : @Eq (FVec Ideal S1x1 .f32) (W7 m ρ c (Proc.devRef .tc main_v41))
      (shapeCast S1x1 (Host.divf (sumS (mulf (Host.divf (W6 m ρ c (Proc.devRef .tc main_v28_0)) (spread (W6 m ρ c (Proc.devRef .tc main_v24))))
        (W6 m ρ c (Proc.devRef .tc main_v23)))) (W6 m ρ c (Proc.devRef .tc main_v24))) shapeCasts_S_S1x1) := by w7_read
  rw [e, W6_v28_0, W6_v24, W6_v23]
theorem W7_v42 (c : Dev nD) : @Eq (FVec Ideal S1x1 .f32) (W7 m ρ c (Proc.devRef .tc main_v42))
    (shapeCast S1x1 (totV m (argO m c) c) shapeCasts_S_S1x1) := by
  have e : @Eq (FVec Ideal S1x1 .f32) (W7 m ρ c (Proc.devRef .tc main_v42))
      (shapeCast S1x1 (Host.divf (sumS (mulf (Host.divf (W6 m ρ c (Proc.devRef .tc main_v28_1)) (spread (W6 m ρ c (Proc.devRef .tc main_v24))))
        (W6 m ρ c (Proc.devRef .tc main_v23)))) (W6 m ρ c (Proc.devRef .tc main_v24))) shapeCasts_S_S1x1) := by w7_read
  rw [e, W6_v28_1, W6_v24, W6_v23]

/-! ## Read as profiles -/

/-- The background count, read at its one index. -/
theorem cntV_apply (c : Dev nD) (j : S_.Idx) : sumS (bkgV m c) j = cnt (col (argT m c)) := by
  rw [sumS_apply]
  exact congrArg total (funext fun k => bkgV_apply m c k)

/-- A column divided by the count reads, at row `k`, its entry divided by the count. -/
theorem divN_apply (P : FVec Ideal S8192x1 .f32) (c : Dev nD) (k : Fin 8192) :
    divN m P c (ix2 k (0 : Fin 1)) = Ideal.div (P (ix2 k (0 : Fin 1))) (cnt (col (argT m c))) := by
  unfold divN
  rw [hostDivf_apply, spread_apply, cntV_apply]

/-- The weighted mean of a column whose entries are a profile `f` is the weighted mean of `f`. -/
theorem meanV_apply (Q : FVec Ideal S8192x1 .f32) (f : Prof) (hQ : ∀ k : Fin 8192, Q (ix2 k (0 : Fin 1)) = f k) (c : Dev nD) (j : S_.Idx) :
    meanV m Q c j = mean f (col (argT m c)) := by
  unfold meanV
  rw [hostDivf_apply, sumS_apply, cntV_apply]
  unfold mean
  refine congrArg₂ Ideal.div ?_ rfl
  exact congrArg total (funext fun k => by
    show Q (ix2 k (0 : Fin 1)) * bkgV m c (ix2 k (0 : Fin 1)) = _
    rw [hQ, bkgV_apply])

/-- The column of row means is the profile of row means. -/
theorem avgV_apply (a : FVec Ideal S8192x1 .f32) (c : Dev nD) (k : Fin 8192) :
    avgV m a c (ix2 k (0 : Fin 1)) = rowAvg (col a) (col (argT m c)) k := by
  unfold avgV
  rw [divN_apply, pairSum_apply]
  rfl

/-- Its background-weighted mean. -/
theorem totV_apply (a : FVec Ideal S8192x1 .f32) (c : Dev nD) (j : S_.Idx) :
    totV m a c j = mean (rowAvg (col a) (col (argT m c))) (col (argT m c)) :=
  meanV_apply m (avgV m a c) _ (fun k => avgV_apply m a c k) c j

end Cert.KernelIdeal.Host

end
-- ==== Proof.Pass2Value.lean ====
/-
  Region 1 (the second pallas_call) read as values, at the ideal instance.

  At grid point `t` the body holds rows `128 t … 128 t + 127` of four column arrays (`x`, `y` and the two columns of row means),
  the whole of five row arrays (`x'`, `y'`, the weights `w` and the two rows of row means) and two `[1, 1]` grand means. With the
  doubly centred distances `A r j = |x r − x' j| − a' j − a r + ā` and `B` likewise from `y`, it stores for each of its rows `r`
  the three sums `Σ_j A·B·w`, `Σ_j A·A·w`, `Σ_j B·B·w`. The 64 blocks tile the three result columns: `prodSum`.
-/
import proofs.«144878_j38285338476743_1_alg».proof.Proof.Gen.KernelIdeal.Frame
import proofs.«144878_j38285338476743_1_alg».proof.Proof.LibRowOps
import proofs.«144878_j38285338476743_1_alg».proof.Proof.LibColumn
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pass2

open Cert.KernelIdeal Cert.KernelIdeal.Gen

/-! ## The values: centred distances and the weighted sums of their products -/

/-- `|a r − b j| − am j − ar r + tot`: the distance from the column's entry at row `r` to the row's entry `j`, centred by the
    row of means at `j`, the column of means at `r` and the grand mean. -/
def cenAt (a : FVec Ideal S8192x1 .f32) (b am : FVec Ideal S1x8192 .f32) (ar : FVec Ideal S8192x1 .f32) (tot : FVec Ideal S1x1 .f32)
    (r j : Fin 8192) : Ideal .f32 :=
  max (a (ix2 r (0 : Fin 1)) - b (ix2 (0 : Fin 1) j)) (-(a (ix2 r (0 : Fin 1)) - b (ix2 (0 : Fin 1) j)))
    - am (ix2 (0 : Fin 1) j) - ar (ix2 r (0 : Fin 1)) + tot (ix2 (0 : Fin 1) (0 : Fin 1))

/-- `Σ_j A r j · B r j · w j`. -/
def prodSumAt (A B : Fin 8192 → Fin 8192 → Ideal .f32) (w : FVec Ideal S1x8192 .f32) (r : Fin 8192) : Ideal .f32 :=
  ∑ j : Fin 8192, A r j * B r j * w (ix2 (0 : Fin 1) j)

/-- The column of those sums, one per row. -/
def prodSum (A B : Fin 8192 → Fin 8192 → Ideal .f32) (w : FVec Ideal S1x8192 .f32) : FVec Ideal S8192x1 .f32 :=
  fun i => prodSumAt A B w ⟨(i 0).val, idx2_lt0 i⟩

variable (V : (c : Dev nD) → (b : Ref sig .tc) → Buf (Elt Ideal) ((c : Thread nD τ).loc b))

/-- The eleven arrays the region reads, as it finds them (windows 0 … 10 in order). -/
abbrev Xcol (c : Dev nD) : FVec Ideal S8192x1 .f32 := V c main_arg2
abbrev Ycol (c : Dev nD) : FVec Ideal S8192x1 .f32 := V c main_arg0
abbrev Xrow (c : Dev nD) : FVec Ideal S1x8192 .f32 := V c main_v25
abbrev Yrow (c : Dev nD) : FVec Ideal S1x8192 .f32 := V c main_v26
abbrev Wrow (c : Dev nD) : FVec Ideal S1x8192 .f32 := V c main_v27
abbrev Acol (c : Dev nD) : FVec Ideal S8192x1 .f32 := V c main_v30
abbrev Arow (c : Dev nD) : FVec Ideal S1x8192 .f32 := V c main_v39
abbrev Bcol (c : Dev nD) : FVec Ideal S8192x1 .f32 := V c main_v32
abbrev Brow (c : Dev nD) : FVec Ideal S1x8192 .f32 := V c main_v40
abbrev Atot (c : Dev nD) : FVec Ideal S1x1 .f32 := V c main_v41
abbrev Btot (c : Dev nD) : FVec Ideal S1x1 .f32 := V c main_v42

/-- The two centred distance matrices of the region's arrays. -/
def Amat (c : Dev nD) : Fin 8192 → Fin 8192 → Ideal .f32 := cenAt (Xcol V c) (Xrow V c) (Arow V c) (Acol V c) (Atot V c)
def Bmat (c : Dev nD) : Fin 8192 → Fin 8192 → Ideal .f32 := cenAt (Ycol V c) (Yrow V c) (Brow V c) (Bcol V c) (Btot V c)

/-! ## The body's values at an index -/

theorem hz : (![0, 0] : Fin 2 → Nat) = fun _ => 0 := funext fun a => by fin_cases a <;> rfl

/-- The first centred distance of the block, at row `p` and lane `j`:
    `|x0 p − x2 j| − x6 j − x5 p + x9`. -/
theorem pay7_apply (x0 : Vec Ideal S128x1 .f32) (x2 : Vec Ideal S1x8192 .f32) (x5 : Vec Ideal S128x1 .f32) (x6 : Vec Ideal S1x8192 .f32)
    (x9 : Vec Ideal S1x1 .f32) (p : Fin 128) (j : Fin 8192) :
    k1_pay7 x0 x2 x5 x6 x9 (ix2 p j)
      = max (x0 (ix2 p (0 : Fin 1)) - x2 (ix2 (0 : Fin 1) j)) (-(x0 (ix2 p (0 : Fin 1)) - x2 (ix2 (0 : Fin 1) j)))
          - x6 (ix2 (0 : Fin 1) j) - x5 (ix2 p (0 : Fin 1)) + x9 (ix2 (0 : Fin 1) (0 : Fin 1)) := by
  unfold k1_pay7
  have e1 : broadcastTo S128x8192 x0 broadcasts_S128x1_S128x8192 (ix2 p j) = x0 (ix2 p (0 : Fin 1)) :=
    Cert.RowOps.broadcastTo_a1_ab_apply x0 _ p j
  have e2 : broadcastTo S128x8192 (shapeCast S1x8192 x2 shapeCasts_S1x8192_S1x8192) broadcasts_S1x8192_S128x8192 (ix2 p j) = x2 (ix2 (0 : Fin 1) j) :=
    Cert.RowOps.rowParam_spread_apply x2 _ _ p j
  have e3 : broadcastTo S128x8192 (shapeCast S1x8192 x6 shapeCasts_S1x8192_S1x8192) broadcasts_S1x8192_S128x8192 (ix2 p j) = x6 (ix2 (0 : Fin 1) j) :=
    Cert.RowOps.rowParam_spread_apply x6 _ _ p j
  have e4 : broadcastTo S128x8192 (shapeCast S128x1 x5 shapeCasts_S128x1_S128x1) broadcasts_S128x1_S128x8192 (ix2 p j) = x5 (ix2 p (0 : Fin 1)) := by
    rw [shapeCast_self]
    exact Cert.RowOps.broadcastTo_a1_ab_apply x5 _ p j
  have e5 : broadcastTo S128x8192 (shapeCast S1x1 x9 shapeCasts_S1x1_S1x1) broadcasts_S1x1_S128x8192 (ix2 p j) = x9 (ix2 (0 : Fin 1) (0 : Fin 1)) := by
    rw [shapeCast_self]
    exact Cert.Column.broadcastTo_11_ab_apply x9 _ p j
  show max (broadcastTo S128x8192 x0 broadcasts_S128x1_S128x8192 (ix2 p j) - broadcastTo S128x8192 (shapeCast S1x8192 x2 shapeCasts_S1x8192_S1x8192) broadcasts_S1x8192_S128x8192 (ix2 p j))
      (-(broadcastTo S128x8192 x0 broadcasts_S128x1_S128x8192 (ix2 p j) - broadcastTo S128x8192 (shapeCast S1x8192 x2 shapeCasts_S1x8192_S1x8192) broadcasts_S1x8192_S128x8192 (ix2 p j)))
      - broadcastTo S128x8192 (shapeCast S1x8192 x6 shapeCasts_S1x8192_S1x8192) broadcasts_S1x8192_S128x8192 (ix2 p j)
      - broadcastTo S128x8192 (shapeCast S128x1 x5 shapeCasts_S128x1_S128x1) broadcasts_S128x1_S128x8192 (ix2 p j)
      + broadcastTo S128x8192 (shapeCast S1x1 x9 shapeCasts_S1x1_S1x1) broadcasts_S1x1_S128x8192 (ix2 p j) = _
  rw [e1, e2, e3, e4, e5]

/-- The second distance less its row of means: `|x1 p − x3 j| − x8 j`. -/
theorem pay8_apply (x1 : Vec Ideal S128x1 .f32) (x3 x8 : Vec Ideal S1x8192 .f32) (p : Fin 128) (j : Fin 8192) :
    k1_pay8 x1 x3 x8 (ix2 p j)
      = max (x1 (ix2 p (0 : Fin 1)) - x3 (ix2 (0 : Fin 1) j)) (-(x1 (ix2 p (0 : Fin 1)) - x3 (ix2 (0 : Fin 1) j))) - x8 (ix2 (0 : Fin 1) j) := by
  unfold k1_pay8
  have e1 : broadcastTo S128x8192 x1 broadcasts_S128x1_S128x8192 (ix2 p j) = x1 (ix2 p (0 : Fin 1)) :=
    Cert.RowOps.broadcastTo_a1_ab_apply x1 _ p j
  have e2 : broadcastTo S128x8192 (shapeCast S1x8192 x3 shapeCasts_S1x8192_S1x8192) broadcasts_S1x8192_S128x8192 (ix2 p j) = x3 (ix2 (0 : Fin 1) j) :=
    Cert.RowOps.rowParam_spread_apply x3 _ _ p j
  have e3 : broadcastTo S128x8192 (shapeCast S1x8192 x8 shapeCasts_S1x8192_S1x8192) broadcasts_S1x8192_S128x8192 (ix2 p j) = x8 (ix2 (0 : Fin 1) j) :=
    Cert.RowOps.rowParam_spread_apply x8 _ _ p j
  show max (broadcastTo S128x8192 x1 broadcasts_S128x1_S128x8192 (ix2 p j) - broadcastTo S128x8192 (shapeCast S1x8192 x3 shapeCasts_S1x8192_S1x8192) broadcasts_S1x8192_S128x8192 (ix2 p j))
      (-(broadcastTo S128x8192 x1 broadcasts_S128x1_S128x8192 (ix2 p j) - broadcastTo S128x8192 (shapeCast S1x8192 x3 shapeCasts_S1x8192_S1x8192) broadcasts_S1x8192_S128x8192 (ix2 p j)))
      - broadcastTo S128x8192 (shapeCast S1x8192 x8 shapeCasts_S1x8192_S1x8192) broadcasts_S1x8192_S128x8192 (ix2 p j) = _
  rw [e1, e2, e3]

/-- The column of means spread over the lanes reads the entry of its row. -/
theorem pay9_apply (x7 : Vec Ideal S128x1 .f32) (p : Fin 128) (j : Fin 8192) :
    k1_pay9 x7 (ix2 p j) = x7 (ix2 p (0 : Fin 1)) := by
  unfold k1_pay9
  rw [shapeCast_self]
  exact Cert.RowOps.broadcastTo_a1_ab_apply x7 _ p j

/-- The weights and the second grand mean pass through a cast to their own shape. -/
theorem pay5_eq (x4 : Vec Ideal S1x8192 .f32) : k1_pay5 x4 = x4 := by
  unfold k1_pay5
  dsimp only
  exact shapeCast_self _ _

theorem pay6_eq (x10 : Vec Ideal S1x1 .f32) : k1_pay6 x10 = x10 := by
  unfold k1_pay6
  dsimp only
  exact shapeCast_self _ _

/-- The second centred distance from its three parts: `v35 − v36 + v19`. -/
theorem pay1_apply (v19 : FVec Ideal S1x1 .f32) (v35 v36 : FVec Ideal S128x8192 .f32) (p : Fin 128) (j : Fin 8192) :
    k1_pay1 v19 v35 v36 (ix2 p j) = v35 (ix2 p j) - v36 (ix2 p j) + v19 (ix2 (0 : Fin 1) (0 : Fin 1)) := by
  unfold k1_pay1
  have e : broadcastTo S128x8192 v19 broadcasts_S1x1_S128x8192 (ix2 p j) = v19 (ix2 (0 : Fin 1) (0 : Fin 1)) :=
    Cert.Column.broadcastTo_11_ab_apply v19 _ p j
  show v35 (ix2 p j) - v36 (ix2 p j) + broadcastTo S128x8192 v19 broadcasts_S1x1_S128x8192 (ix2 p j) = _
  rw [e]

/-- The first stored column at row `p`: the weighted sum over the lanes of the product of the two centred distances. -/
theorem pay2_apply (v7 : FVec Ideal S1x8192 .f32) (v19 : FVec Ideal S1x1 .f32) (v33 v35 v36 : FVec Ideal S128x8192 .f32) (p : Fin 128) (u : Fin 1) :
    k1_pay2 v7 v19 v33 v35 v36 (ix2 p u)
      = ∑ j : Fin 8192, v33 (ix2 p j) * (v35 (ix2 p j) - v36 (ix2 p j) + v19 (ix2 (0 : Fin 1) (0 : Fin 1))) * v7 (ix2 (0 : Fin 1) j) := by
  unfold k1_pay2
  dsimp only
  refine (Cert.RowOps.shapeCast_a_a1_apply _ _ p u).trans ?_
  refine (Cert.RowOps.laneSum_apply _ _ _ _ _ p).trans ?_
  refine Finset.sum_congr rfl fun j _ => ?_
  have e1 : k1_pay1 v19 v35 v36 (ix2 p j) = v35 (ix2 p j) - v36 (ix2 p j) + v19 (ix2 (0 : Fin 1) (0 : Fin 1)) := pay1_apply v19 v35 v36 p j
  have e2 : broadcastTo S128x8192 v7 broadcasts_S1x8192_S128x8192 (ix2 p j) = v7 (ix2 (0 : Fin 1) j) :=
    broadcastTo_1b_ab_apply v7 _ p j
  show v33 (ix2 p j) * k1_pay1 v19 v35 v36 (ix2 p j) * broadcastTo S128x8192 v7 broadcasts_S1x8192_S128x8192 (ix2 p j) = _
  rw [e1, e2]

/-- The second stored column: the weighted sum of squares of the first centred distance. -/
theorem pay3_apply (v7 : FVec Ideal S1x8192 .f32) (v33 : FVec Ideal S128x8192 .f32) (p : Fin 128) (u : Fin 1) :
    k1_pay3 v7 v33 (ix2 p u) = ∑ j : Fin 8192, v33 (ix2 p j) * v33 (ix2 p j) * v7 (ix2 (0 : Fin 1) j) := by
  unfold k1_pay3
  dsimp only
  refine (Cert.RowOps.shapeCast_a_a1_apply _ _ p u).trans ?_
  refine (Cert.RowOps.laneSum_apply _ _ _ _ _ p).trans ?_
  refine Finset.sum_congr rfl fun j _ => ?_
  have e2 : broadcastTo S128x8192 v7 broadcasts_S1x8192_S128x8192 (ix2 p j) = v7 (ix2 (0 : Fin 1) j) :=
    broadcastTo_1b_ab_apply v7 _ p j
  show v33 (ix2 p j) * v33 (ix2 p j) * broadcastTo S128x8192 v7 broadcasts_S1x8192_S128x8192 (ix2 p j) = _
  rw [e2]

/-- The third stored column: the weighted sum of squares of the second centred distance. -/
theorem pay4_apply (v7 : FVec Ideal S1x8192 .f32) (v19 : FVec Ideal S1x1 .f32) (v35 v36 : FVec Ideal S128x8192 .f32) (p : Fin 128) (u : Fin 1) :
    k1_pay4 v7 v19 v35 v36 (ix2 p u)
      = ∑ j : Fin 8192, (v35 (ix2 p j) - v36 (ix2 p j) + v19 (ix2 (0 : Fin 1) (0 : Fin 1)))
          * (v35 (ix2 p j) - v36 (ix2 p j) + v19 (ix2 (0 : Fin 1) (0 : Fin 1))) * v7 (ix2 (0 : Fin 1) j) := by
  unfold k1_pay4
  dsimp only
  refine (Cert.RowOps.shapeCast_a_a1_apply _ _ p u).trans ?_
  refine (Cert.RowOps.laneSum_apply _ _ _ _ _ p).trans ?_
  refine Finset.sum_congr rfl fun j _ => ?_
  have e1 : k1_pay1 v19 v35 v36 (ix2 p j) = v35 (ix2 p j) - v36 (ix2 p j) + v19 (ix2 (0 : Fin 1) (0 : Fin 1)) := pay1_apply v19 v35 v36 p j
  have e2 : broadcastTo S128x8192 v7 broadcasts_S1x8192_S128x8192 (ix2 p j) = v7 (ix2 (0 : Fin 1) j) :=
    broadcastTo_1b_ab_apply v7 _ p j
  show k1_pay1 v19 v35 v36 (ix2 p j) * k1_pay1 v19 v35 v36 (ix2 p j) * broadcastTo S128x8192 v7 broadcasts_S1x8192_S128x8192 (ix2 p j) = _
  rw [e1, e2]

/-- What the body leaves in each output buffer is its one stored value. -/
theorem out11_eq (x0 x1 : Vec Ideal S128x1 .f32) (x2 x3 x4 : Vec Ideal S1x8192 .f32) (x5 : Vec Ideal S128x1 .f32) (x6 : Vec Ideal S1x8192 .f32)
    (x7 : Vec Ideal S128x1 .f32) (x8 : Vec Ideal S1x8192 .f32) (x9 x10 : Vec Ideal S1x1 .f32) :
    out1_11 x0 x1 x2 x3 x4 x5 x6 x7 x8 x9 x10
      = k1_pay2 (k1_pay5 x4) (k1_pay6 x10) (k1_pay7 x0 x2 x5 x6 x9) (k1_pay8 x1 x3 x8) (k1_pay9 x7) := by
  unfold out1_11
  rw [View.canon_unit_zero hz]
  simp only [View.ld_unit_zero (S := S128x1) hz, View.ld_unit_zero (S := S1x8192) hz, View.ld_unit_zero (S := S1x1) hz]

theorem out12_eq (x0 x1 : Vec Ideal S128x1 .f32) (x2 x3 x4 : Vec Ideal S1x8192 .f32) (x5 : Vec Ideal S128x1 .f32) (x6 : Vec Ideal S1x8192 .f32)
    (x7 : Vec Ideal S128x1 .f32) (x8 : Vec Ideal S1x8192 .f32) (x9 x10 : Vec Ideal S1x1 .f32) :
    out1_12 x0 x1 x2 x3 x4 x5 x6 x7 x8 x9 x10 = k1_pay3 (k1_pay5 x4) (k1_pay7 x0 x2 x5 x6 x9) := by
  unfold out1_12
  rw [View.canon_unit_zero hz]
  simp only [View.ld_unit_zero (S := S128x1) hz, View.ld_unit_zero (S := S1x8192) hz, View.ld_unit_zero (S := S1x1) hz]

theorem out13_eq (x0 x1 : Vec Ideal S128x1 .f32) (x2 x3 x4 : Vec Ideal S1x8192 .f32) (x5 : Vec Ideal S128x1 .f32) (x6 : Vec Ideal S1x8192 .f32)
    (x7 : Vec Ideal S128x1 .f32) (x8 : Vec Ideal S1x8192 .f32) (x9 x10 : Vec Ideal S1x1 .f32) :
    out1_13 x0 x1 x2 x3 x4 x5 x6 x7 x8 x9 x10 = k1_pay4 (k1_pay5 x4) (k1_pay6 x10) (k1_pay8 x1 x3 x8) (k1_pay9 x7) := by
  unfold out1_13
  rw [View.canon_unit_zero hz]
  simp only [View.ld_unit_zero (S := S128x1) hz, View.ld_unit_zero (S := S1x8192) hz, View.ld_unit_zero (S := S1x1) hz]

/-! ## The blocks: rows of the columns, the whole of the rows and of the two grand means -/

/-- The printed index maps over the grid: a column window moves down one block per point, a row or `[1, 1]` window stays. -/
theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = 0 ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = t.val ∧ win1_5.index t (1 : Fin 2) = 0 :=
  (by decide +kernel : ∀ t : Fin grid1.N, _)
theorem idx_6 : ∀ t : Fin cfg1.N, win1_6.index t (0 : Fin 2) = 0 ∧ win1_6.index t (1 : Fin 2) = 0 :=
  (by decide +kernel : ∀ t : Fin grid1.N, _)
theorem idx_7 : ∀ t : Fin cfg1.N, win1_7.index t (0 : Fin 2) = t.val ∧ win1_7.index t (1 : Fin 2) = 0 :=
  (by decide +kernel : ∀ t : Fin grid1.N, _)
theorem idx_8 : ∀ t : Fin cfg1.N, win1_8.index t (0 : Fin 2) = 0 ∧ win1_8.index t (1 : Fin 2) = 0 :=
  (by decide +kernel : ∀ t : Fin grid1.N, _)
theorem idx_9 : ∀ t : Fin cfg1.N, win1_9.index t (0 : Fin 2) = 0 ∧ win1_9.index t (1 : Fin 2) = 0 :=
  (by decide +kernel : ∀ t : Fin grid1.N, _)
theorem idx_10 : ∀ t : Fin cfg1.N, win1_10.index t (0 : Fin 2) = 0 ∧ win1_10.index t (1 : Fin 2) = 0 :=
  (by decide +kernel : ∀ t : Fin grid1.N, _)
theorem idx_11 : ∀ t : Fin cfg1.N, win1_11.index t (0 : Fin 2) = t.val ∧ win1_11.index t (1 : Fin 2) = 0 :=
  (by decide +kernel : ∀ t : Fin grid1.N, _)
theorem idx_12 : ∀ t : Fin cfg1.N, win1_12.index t (0 : Fin 2) = t.val ∧ win1_12.index t (1 : Fin 2) = 0 :=
  (by decide +kernel : ∀ t : Fin grid1.N, _)
theorem idx_13 : ∀ t : Fin cfg1.N, win1_13.index t (0 : Fin 2) = t.val ∧ win1_13.index t (1 : Fin 2) = 0 :=
  (by decide +kernel : ∀ t : Fin grid1.N, _)

theorem t_lt (t : Fin cfg1.N) : t.val < 64 := by
  have h : t.val < cfg1.N := t.isLt
  have e : cfg1.N = 64 := N_1
  omega

/-- The eleven blocks at point `t`. -/
abbrev xblk (c : Dev nD) (t : Fin cfg1.N) : Vec Ideal S128x1 .f32 := iblk1 V c 0 t
abbrev yblk (c : Dev nD) (t : Fin cfg1.N) : Vec Ideal S128x1 .f32 := iblk1 V c 1 t
abbrev xrblk (c : Dev nD) (t : Fin cfg1.N) : Vec Ideal S1x8192 .f32 := iblk1 V c 2 t
abbrev yrblk (c : Dev nD) (t : Fin cfg1.N) : Vec Ideal S1x8192 .f32 := iblk1 V c 3 t
abbrev wrblk (c : Dev nD) (t : Fin cfg1.N) : Vec Ideal S1x8192 .f32 := iblk1 V c 4 t
abbrev acblk (c : Dev nD) (t : Fin cfg1.N) : Vec Ideal S128x1 .f32 := iblk1 V c 5 t
abbrev arblk (c : Dev nD) (t : Fin cfg1.N) : Vec Ideal S1x8192 .f32 := iblk1 V c 6 t
abbrev bcblk (c : Dev nD) (t : Fin cfg1.N) : Vec Ideal S128x1 .f32 := iblk1 V c 7 t
abbrev brblk (c : Dev nD) (t : Fin cfg1.N) : Vec Ideal S1x8192 .f32 := iblk1 V c 8 t
abbrev atblk (c : Dev nD) (t : Fin cfg1.N) : Vec Ideal S1x1 .f32 := iblk1 V c 9 t
abbrev btblk (c : Dev nD) (t : Fin cfg1.N) : Vec Ideal S1x1 .f32 := iblk1 V c 10 t

/-- Row `p` of a column's block at point `t` is row `128 t + p` of the column. -/
theorem xblk_apply (c : Dev nD) (t : Fin cfg1.N) (p : Fin 128) (u : Fin 1) :
    xblk V c t (ix2 p u) = Xcol V c (ix2 (⟨128 * t.val + p.val, by have := t_lt t; have := p.isLt; omega⟩ : Fin 8192) (0 : Fin 1)) := by
  obtain ⟨e0, e1⟩ := idx_0 t
  show iblk1 V c 0 t (ix2 p u) = _
  unfold iblk1
  rw [View.read_apply]
  show V c main_arg2 _ = V c main_arg2 _
  congr 1
  funext a
  apply Fin.ext
  match a with
  | ⟨0, _⟩ => show win1_0.index t (0 : Fin 2) * 128 + 1 * p.val = 128 * t.val + p.val; rw [e0]; omega
  | ⟨1, _⟩ => show win1_0.index t (1 : Fin 2) * 1 + 1 * u.val = 0; rw [e1]; have := u.isLt; omega

theorem yblk_apply (c : Dev nD) (t : Fin cfg1.N) (p : Fin 128) (u : Fin 1) :
    yblk V c t (ix2 p u) = Ycol V c (ix2 (⟨128 * t.val + p.val, by have := t_lt t; have := p.isLt; omega⟩ : Fin 8192) (0 : Fin 1)) := by
  obtain ⟨e0, e1⟩ := idx_1 t
  show iblk1 V c 1 t (ix2 p u) = _
  unfold iblk1
  rw [View.read_apply]
  show V c main_arg0 _ = V c main_arg0 _
  congr 1
  funext a
  apply Fin.ext
  match a with
  | ⟨0, _⟩ => show win1_1.index t (0 : Fin 2) * 128 + 1 * p.val = 128 * t.val + p.val; rw [e0]; omega
  | ⟨1, _⟩ => show win1_1.index t (1 : Fin 2) * 1 + 1 * u.val = 0; rw [e1]; have := u.isLt; omega

theorem acblk_apply (c : Dev nD) (t : Fin cfg1.N) (p : Fin 128) (u : Fin 1) :
    acblk V c t (ix2 p u) = Acol V c (ix2 (⟨128 * t.val + p.val, by have := t_lt t; have := p.isLt; omega⟩ : Fin 8192) (0 : Fin 1)) := by
  obtain ⟨e0, e1⟩ := idx_5 t
  show iblk1 V c 5 t (ix2 p u) = _
  unfold iblk1
  rw [View.read_apply]
  show V c main_v30 _ = V c main_v30 _
  congr 1
  funext a
  apply Fin.ext
  match a with
  | ⟨0, _⟩ => show win1_5.index t (0 : Fin 2) * 128 + 1 * p.val = 128 * t.val + p.val; rw [e0]; omega
  | ⟨1, _⟩ => show win1_5.index t (1 : Fin 2) * 1 + 1 * u.val = 0; rw [e1]; have := u.isLt; omega

theorem bcblk_apply (c : Dev nD) (t : Fin cfg1.N) (p : Fin 128) (u : Fin 1) :
    bcblk V c t (ix2 p u) = Bcol V c (ix2 (⟨128 * t.val + p.val, by have := t_lt t; have := p.isLt; omega⟩ : Fin 8192) (0 : Fin 1)) := by
  obtain ⟨e0, e1⟩ := idx_7 t
  show iblk1 V c 7 t (ix2 p u) = _
  unfold iblk1
  rw [View.read_apply]
  show V c main_v32 _ = V c main_v32 _
  congr 1
  funext a
  apply Fin.ext
  match a with
  | ⟨0, _⟩ => show win1_7.index t (0 : Fin 2) * 128 + 1 * p.val = 128 * t.val + p.val; rw [e0]; omega
  | ⟨1, _⟩ => show win1_7.index t (1 : Fin 2) * 1 + 1 * u.val = 0; rw [e1]; have := u.isLt; omega

/-- Each row window's block is the whole row. -/
theorem xrblk_apply (c : Dev nD) (t : Fin cfg1.N) (u : Fin 1) (j : Fin 8192) :
    xrblk V c t (ix2 u j) = Xrow V c (ix2 (0 : Fin 1) j) := by
  obtain ⟨e0, e1⟩ := idx_2 t
  show iblk1 V c 2 t (ix2 u j) = _
  unfold iblk1
  rw [View.read_apply]
  show V c main_v25 _ = V c main_v25 _
  congr 1
  funext a
  apply Fin.ext
  match a with
  | ⟨0, _⟩ => show win1_2.index t (0 : Fin 2) * 1 + 1 * u.val = 0; rw [e0]; have := u.isLt; omega
  | ⟨1, _⟩ => show win1_2.index t (1 : Fin 2) * 8192 + 1 * j.val = j.val; rw [e1]; omega

theorem yrblk_apply (c : Dev nD) (t : Fin cfg1.N) (u : Fin 1) (j : Fin 8192) :
    yrblk V c t (ix2 u j) = Yrow V c (ix2 (0 : Fin 1) j) := by
  obtain ⟨e0, e1⟩ := idx_3 t
  show iblk1 V c 3 t (ix2 u j) = _
  unfold iblk1
  rw [View.read_apply]
  show V c main_v26 _ = V c main_v26 _
  congr 1
  funext a
  apply Fin.ext
  match a with
  | ⟨0, _⟩ => show win1_3.index t (0 : Fin 2) * 1 + 1 * u.val = 0; rw [e0]; have := u.isLt; omega
  | ⟨1, _⟩ => show win1_3.index t (1 : Fin 2) * 8192 + 1 * j.val = j.val; rw [e1]; omega

theorem wrblk_apply (c : Dev nD) (t : Fin cfg1.N) (u : Fin 1) (j : Fin 8192) :
    wrblk V c t (ix2 u j) = Wrow V c (ix2 (0 : Fin 1) j) := by
  obtain ⟨e0, e1⟩ := idx_4 t
  show iblk1 V c 4 t (ix2 u j) = _
  unfold iblk1
  rw [View.read_apply]
  show V c main_v27 _ = V c main_v27 _
  congr 1
  funext a
  apply Fin.ext
  match a with
  | ⟨0, _⟩ => show win1_4.index t (0 : Fin 2) * 1 + 1 * u.val = 0; rw [e0]; have := u.isLt; omega
  | ⟨1, _⟩ => show win1_4.index t (1 : Fin 2) * 8192 + 1 * j.val = j.val; rw [e1]; omega

theorem arblk_apply (c : Dev nD) (t : Fin cfg1.N) (u : Fin 1) (j : Fin 8192) :
    arblk V c t (ix2 u j) = Arow V c (ix2 (0 : Fin 1) j) := by
  obtain ⟨e0, e1⟩ := idx_6 t
  show iblk1 V c 6 t (ix2 u j) = _
  unfold iblk1
  rw [View.read_apply]
  show V c main_v39 _ = V c main_v39 _
  congr 1
  funext a
  apply Fin.ext
  match a with
  | ⟨0, _⟩ => show win1_6.index t (0 : Fin 2) * 1 + 1 * u.val = 0; rw [e0]; have := u.isLt; omega
  | ⟨1, _⟩ => show win1_6.index t (1 : Fin 2) * 8192 + 1 * j.val = j.val; rw [e1]; omega

theorem brblk_apply (c : Dev nD) (t : Fin cfg1.N) (u : Fin 1) (j : Fin 8192) :
    brblk V c t (ix2 u j) = Brow V c (ix2 (0 : Fin 1) j) := by
  obtain ⟨e0, e1⟩ := idx_8 t
  show iblk1 V c 8 t (ix2 u j) = _
  unfold iblk1
  rw [View.read_apply]
  show V c main_v40 _ = V c main_v40 _
  congr 1
  funext a
  apply Fin.ext
  match a with
  | ⟨0, _⟩ => show win1_8.index t (0 : Fin 2) * 1 + 1 * u.val = 0; rw [e0]; have := u.isLt; omega
  | ⟨1, _⟩ => show win1_8.index t (1 : Fin 2) * 8192 + 1 * j.val = j.val; rw [e1]; omega

/-- Each `[1, 1]` window's block is the whole one-entry array. -/
theorem atblk_apply (c : Dev nD) (t : Fin cfg1.N) (u v : Fin 1) :
    atblk V c t (ix2 u v) = Atot V c (ix2 (0 : Fin 1) (0 : Fin 1)) := by
  obtain ⟨e0, e1⟩ := idx_9 t
  show iblk1 V c 9 t (ix2 u v) = _
  unfold iblk1
  rw [View.read_apply]
  show V c main_v41 _ = V c main_v41 _
  congr 1
  funext a
  apply Fin.ext
  match a with
  | ⟨0, _⟩ => show win1_9.index t (0 : Fin 2) * 1 + 1 * u.val = 0; rw [e0]; have := u.isLt; omega
  | ⟨1, _⟩ => show win1_9.index t (1 : Fin 2) * 1 + 1 * v.val = 0; rw [e1]; have := v.isLt; omega

theorem btblk_apply (c : Dev nD) (t : Fin cfg1.N) (u v : Fin 1) :
    btblk V c t (ix2 u v) = Btot V c (ix2 (0 : Fin 1) (0 : Fin 1)) := by
  obtain ⟨e0, e1⟩ := idx_10 t
  show iblk1 V c 10 t (ix2 u v) = _
  unfold iblk1
  rw [View.read_apply]
  show V c main_v42 _ = V c main_v42 _
  congr 1
  funext a
  apply Fin.ext
  match a with
  | ⟨0, _⟩ => show win1_10.index t (0 : Fin 2) * 1 + 1 * u.val = 0; rw [e0]; have := u.isLt; omega
  | ⟨1, _⟩ => show win1_10.index t (1 : Fin 2) * 1 + 1 * v.val = 0; rw [e1]; have := v.isLt; omega

/-! ## What each point writes back, and the arrays after the region -/

/-- On the blocks of point `t` the first centred distance at row `p` is that of row `128 t + p` of the arrays. -/
theorem Ablk_apply (c : Dev nD) (t : Fin cfg1.N) (p : Fin 128) (j : Fin 8192) :
    k1_pay7 (xblk V c t) (xrblk V c t) (acblk V c t) (arblk V c t) (atblk V c t) (ix2 p j)
      = Amat V c (⟨128 * t.val + p.val, by have := t_lt t; have := p.isLt; omega⟩ : Fin 8192) j := by
  refine (pay7_apply (xblk V c t) (xrblk V c t) (acblk V c t) (arblk V c t) (atblk V c t) p j).trans ?_
  rw [xblk_apply, xrblk_apply, acblk_apply, arblk_apply, atblk_apply]
  rfl

/-- … and so is the second, assembled from its three parts. -/
theorem Bblk_apply (c : Dev nD) (t : Fin cfg1.N) (p : Fin 128) (j : Fin 8192) :
    k1_pay8 (yblk V c t) (yrblk V c t) (brblk V c t) (ix2 p j) - k1_pay9 (bcblk V c t) (ix2 p j)
        + k1_pay6 (btblk V c t) (ix2 (0 : Fin 1) (0 : Fin 1))
      = Bmat V c (⟨128 * t.val + p.val, by have := t_lt t; have := p.isLt; omega⟩ : Fin 8192) j := by
  rw [pay8_apply, pay9_apply, pay6_eq, yblk_apply, yrblk_apply, brblk_apply, bcblk_apply, btblk_apply]
  rfl

/-- The weights' block is the row of weights. -/
theorem Wblk_apply (c : Dev nD) (t : Fin cfg1.N) (j : Fin 8192) :
    k1_pay5 (wrblk V c t) (ix2 (0 : Fin 1) j) = Wrow V c (ix2 (0 : Fin 1) j) := by
  rw [pay5_eq, wrblk_apply]

/-- Point `t` writes back block `t` of the column of weighted sums of `A · B`. -/
theorem flushed11_eq (c : Dev nD) (t : Fin cfg1.N) :
    (dat1 V c).flushed 11 t = ((cfg1.win 11).blk t).view.read (Elt Ideal) (prodSum (Amat V c) (Bmat V c) (Wrow V c)) := by
  obtain ⟨e0, e1⟩ := idx_11 t
  show (cfg1.win 11).cut (grid1.coords t) ((dat1 V c).after 11 t) = _
  rw [after1_11, out11_eq]
  funext y
  obtain ⟨p, u, rfl⟩ : ∃ (p : Fin 128) (u : Fin 1), y = ix2 p u := ⟨y 0, y 1, eq_ix2 y⟩
  show k1_pay2 (k1_pay5 (wrblk V c t)) (k1_pay6 (btblk V c t))
        (k1_pay7 (xblk V c t) (xrblk V c t) (acblk V c t) (arblk V c t) (atblk V c t))
        (k1_pay8 (yblk V c t) (yrblk V c t) (brblk V c t)) (k1_pay9 (bcblk V c t)) (ix2 p u)
      = prodSum (Amat V c) (Bmat V c) (Wrow V c) (((cfg1.win 11).blk t).view.emb (ix2 p u))
  refine (pay2_apply _ _ _ _ _ p u).trans ?_
  unfold prodSum prodSumAt
  refine Finset.sum_congr rfl fun j _ => ?_
  rw [Ablk_apply, Bblk_apply, Wblk_apply]
  have hr : (⟨128 * t.val + p.val, by have := t_lt t; have := p.isLt; omega⟩ : Fin 8192)
      = ⟨((((cfg1.win 11).blk t).view.emb (ix2 p u)) 0).val, idx2_lt0 _⟩ := by
    apply Fin.ext
    show 128 * t.val + p.val = win1_11.index t (0 : Fin 2) * 128 + 1 * p.val
    rw [e0]; omega
  rw [hr]

/-- … of `A · A` … -/
theorem flushed12_eq (c : Dev nD) (t : Fin cfg1.N) :
    (dat1 V c).flushed 12 t = ((cfg1.win 12).blk t).view.read (Elt Ideal) (prodSum (Amat V c) (Amat V c) (Wrow V c)) := by
  obtain ⟨e0, e1⟩ := idx_12 t
  show (cfg1.win 12).cut (grid1.coords t) ((dat1 V c).after 12 t) = _
  rw [after1_12, out12_eq]
  funext y
  obtain ⟨p, u, rfl⟩ : ∃ (p : Fin 128) (u : Fin 1), y = ix2 p u := ⟨y 0, y 1, eq_ix2 y⟩
  show k1_pay3 (k1_pay5 (wrblk V c t))
        (k1_pay7 (xblk V c t) (xrblk V c t) (acblk V c t) (arblk V c t) (atblk V c t)) (ix2 p u)
      = prodSum (Amat V c) (Amat V c) (Wrow V c) (((cfg1.win 12).blk t).view.emb (ix2 p u))
  refine (pay3_apply _ _ p u).trans ?_
  unfold prodSum prodSumAt
  refine Finset.sum_congr rfl fun j _ => ?_
  rw [Ablk_apply, Wblk_apply]
  have hr : (⟨128 * t.val + p.val, by have := t_lt t; have := p.isLt; omega⟩ : Fin 8192)
      = ⟨((((cfg1.win 12).blk t).view.emb (ix2 p u)) 0).val, idx2_lt0 _⟩ := by
    apply Fin.ext
    show 128 * t.val + p.val = win1_12.index t (0 : Fin 2) * 128 + 1 * p.val
    rw [e0]; omega
  rw [hr]

/-- … and of `B · B`. -/
theorem flushed13_eq (c : Dev nD) (t : Fin cfg1.N) :
    (dat1 V c).flushed 13 t = ((cfg1.win 13).blk t).view.read (Elt Ideal) (prodSum (Bmat V c) (Bmat V c) (Wrow V c)) := by
  obtain ⟨e0, e1⟩ := idx_13 t
  show (cfg1.win 13).cut (grid1.coords t) ((dat1 V c).after 13 t) = _
  rw [after1_13, out13_eq]
  funext y
  obtain ⟨p, u, rfl⟩ : ∃ (p : Fin 128) (u : Fin 1), y = ix2 p u := ⟨y 0, y 1, eq_ix2 y⟩
  show k1_pay4 (k1_pay5 (wrblk V c t)) (k1_pay6 (btblk V c t))
        (k1_pay8 (yblk V c t) (yrblk V c t) (brblk V c t)) (k1_pay9 (bcblk V c t)) (ix2 p u)
      = prodSum (Bmat V c) (Bmat V c) (Wrow V c) (((cfg1.win 13).blk t).view.emb (ix2 p u))
  refine (pay4_apply _ _ _ _ p u).trans ?_
  unfold prodSum prodSumAt
  refine Finset.sum_congr rfl fun j _ => ?_
  rw [Bblk_apply, Wblk_apply]
  have hr : (⟨128 * t.val + p.val, by have := t_lt t; have := p.isLt; omega⟩ : Fin 8192)
      = ⟨((((cfg1.win 13).blk t).view.emb (ix2 p u)) 0).val, idx2_lt0 _⟩ := by
    apply Fin.ext
    show 128 * t.val + p.val = win1_13.index t (0 : Fin 2) * 128 + 1 * p.val
    rw [e0]; omega
  rw [hr]

/-- Row `r` of a result column lies in the block of point `r / 128`. -/
theorem cover11 (i : S8192x1.Idx) : ∃ t : Fin cfg1.N, (cfg1.win 11).flush t = true ∧ i ∈ ((cfg1.win 11).blk t).view.set := by
  have hi0 : (i 0).val < 8192 := (i 0).isLt
  have hi1 : (i 1).val < 1 := (i 1).isLt
  let t : Fin cfg1.N := ⟨(i 0).val / 128, by rw [show cfg1.N = 64 from N_1]; omega⟩
  obtain ⟨e0, e1⟩ := idx_11 t
  have ht : t.val = (i 0).val / 128 := rfl
  refine ⟨t, flush1_11 t, ?_⟩
  show i ∈ ((View.whole main_v43_0).slice (win1_11.rect t)).set
  rw [View.set_slice_whole, Rect.mem_set_unit]
  intro a
  match a with
  | ⟨0, _⟩ => show win1_11.index t (0 : Fin 2) * 128 ≤ (i 0).val ∧ (i 0).val < win1_11.index t (0 : Fin 2) * 128 + 128; rw [e0, ht]; omega
  | ⟨1, _⟩ => show win1_11.index t (1 : Fin 2) * 1 ≤ (i 1).val ∧ (i 1).val < win1_11.index t (1 : Fin 2) * 1 + 1; rw [e1]; omega

theorem cover12 (i : S8192x1.Idx) : ∃ t : Fin cfg1.N, (cfg1.win 12).flush t = true ∧ i ∈ ((cfg1.win 12).blk t).view.set := by
  have hi0 : (i 0).val < 8192 := (i 0).isLt
  have hi1 : (i 1).val < 1 := (i 1).isLt
  let t : Fin cfg1.N := ⟨(i 0).val / 128, by rw [show cfg1.N = 64 from N_1]; omega⟩
  obtain ⟨e0, e1⟩ := idx_12 t
  have ht : t.val = (i 0).val / 128 := rfl
  refine ⟨t, flush1_12 t, ?_⟩
  show i ∈ ((View.whole main_v43_1).slice (win1_12.rect t)).set
  rw [View.set_slice_whole, Rect.mem_set_unit]
  intro a
  match a with
  | ⟨0, _⟩ => show win1_12.index t (0 : Fin 2) * 128 ≤ (i 0).val ∧ (i 0).val < win1_12.index t (0 : Fin 2) * 128 + 128; rw [e0, ht]; omega
  | ⟨1, _⟩ => show win1_12.index t (1 : Fin 2) * 1 ≤ (i 1).val ∧ (i 1).val < win1_12.index t (1 : Fin 2) * 1 + 1; rw [e1]; omega

theorem cover13 (i : S8192x1.Idx) : ∃ t : Fin cfg1.N, (cfg1.win 13).flush t = true ∧ i ∈ ((cfg1.win 13).blk t).view.set := by
  have hi0 : (i 0).val < 8192 := (i 0).isLt
  have hi1 : (i 1).val < 1 := (i 1).isLt
  let t : Fin cfg1.N := ⟨(i 0).val / 128, by rw [show cfg1.N = 64 from N_1]; omega⟩
  obtain ⟨e0, e1⟩ := idx_13 t
  have ht : t.val = (i 0).val / 128 := rfl
  refine ⟨t, flush1_13 t, ?_⟩
  show i ∈ ((View.whole main_v43_2).slice (win1_13.rect t)).set
  rw [View.set_slice_whole, Rect.mem_set_unit]
  intro a
  match a with
  | ⟨0, _⟩ => show win1_13.index t (0 : Fin 2) * 128 ≤ (i 0).val ∧ (i 0).val < win1_13.index t (0 : Fin 2) * 128 + 128; rw [e0, ht]; omega
  | ⟨1, _⟩ => show win1_13.index t (1 : Fin 2) * 1 ≤ (i 1).val ∧ (i 1).val < win1_13.index t (1 : Fin 2) * 1 + 1; rw [e1]; omega

/-- After the region the three result columns hold, at every row, the weighted sums of products of centred distances. -/
theorem final11 (c : Dev nD) : (dat1 V c).arrAt 11 cfg1.N = prodSum (Amat V c) (Bmat V c) (Wrow V c) := by
  exact (dat1 V c).arrAt_eq_of_cover 11 (prodSum (Amat V c) (Bmat V c) (Wrow V c)) (fun t _ => flushed11_eq V c t) (cover11)

theorem final12 (c : Dev nD) : (dat1 V c).arrAt 12 cfg1.N = prodSum (Amat V c) (Amat V c) (Wrow V c) := by
  exact (dat1 V c).arrAt_eq_of_cover 12 (prodSum (Amat V c) (Amat V c) (Wrow V c)) (fun t _ => flushed12_eq V c t) (cover12)

theorem final13 (c : Dev nD) : (dat1 V c).arrAt 13 cfg1.N = prodSum (Bmat V c) (Bmat V c) (Wrow V c) := by
  exact (dat1 V c).arrAt_eq_of_cover 13 (prodSum (Bmat V c) (Bmat V c) (Wrow V c)) (fun t _ => flushed13_eq V c t) (cover13)

end Cert.KernelIdeal.Pass2

end
-- ==== Proof.HostAfter.lean ====
/-
  After the kernel program's second region, read as values at the ideal instance: the kernel's result is the loss.

  The second region reads the columns and rows of `x`, `o`, the background indicator, the row means and the two grand means, so its
  centred distance matrices are the spec's `cen`; it leaves the three columns of weighted sums of their products. The host divides
  each by the background count (`prodAvg`), takes the three background-weighted means, and returns the windowed cross-entropy plus ten
  times `mean(A·B) / sqrt(mean(A·A) · mean(B·B))`.
-/
import proofs.«144878_j38285338476743_1_alg».proof.Proof.HostBetween
import proofs.«144878_j38285338476743_1_alg».proof.Proof.Pass2Value

set_option maxRecDepth 16384

noncomputable section

open Idealize.ShloMosaic Idealize.ShloMosaic.TcCoe Idealize.SL.Sem Idealize.ShloMosaic.ValueIdx Idealize.ShloMosaic.StableHlo

namespace Cert.KernelIdeal.Host

open Cert.KernelIdeal Cert.KernelIdeal.Gen Cert.Spec

variable (m : (ℓ : Loc nD τ sig) → Buf (Elt Ideal) ℓ) (ρ : Dev nD → PrngReg)

/-! ## The second region's centred distances are the spec's -/

theorem Amat_apply (c : Dev nD) (k j : Fin 8192) :
    Cert.KernelIdeal.Pass2.Amat (V7 m ρ) c k j = cen (col (argX m c)) (col (argT m c)) k j := by
  show Cert.KernelIdeal.Pass2.cenAt (W7 m ρ c (Proc.devRef .tc main_arg2)) (W7 m ρ c (Proc.devRef .tc main_v25))
      (W7 m ρ c (Proc.devRef .tc main_v39)) (W7 m ρ c (Proc.devRef .tc main_v30)) (W7 m ρ c (Proc.devRef .tc main_v41)) k j = _
  rw [W7_arg2, W7_v25, W7_v39, W7_v30, W7_v41]
  unfold Cert.KernelIdeal.Pass2.cenAt cen
  rw [tr_apply, tr_apply, avgV_apply, avgV_apply, Cert.Column.shapeCast_scalar_11_apply, totV_apply]
  rfl

theorem Bmat_apply (c : Dev nD) (k j : Fin 8192) :
    Cert.KernelIdeal.Pass2.Bmat (V7 m ρ) c k j = cen (col (argO m c)) (col (argT m c)) k j := by
  show Cert.KernelIdeal.Pass2.cenAt (W7 m ρ c (Proc.devRef .tc main_arg0)) (W7 m ρ c (Proc.devRef .tc main_v26))
      (W7 m ρ c (Proc.devRef .tc main_v40)) (W7 m ρ c (Proc.devRef .tc main_v32)) (W7 m ρ c (Proc.devRef .tc main_v42)) k j = _
  rw [W7_arg0, W7_v26, W7_v40, W7_v32, W7_v42]
  unfold Cert.KernelIdeal.Pass2.cenAt cen
  rw [tr_apply, tr_apply, avgV_apply, avgV_apply, Cert.Column.shapeCast_scalar_11_apply, totV_apply]
  rfl

/-- A column of weighted product sums, at row `k`, once its two matrices are known. -/
theorem prodSum_apply (A B A' B' : Fin 8192 → Fin 8192 → Ideal .f32) (hA : ∀ k j, A k j = A' k j) (hB : ∀ k j, B k j = B' k j)
    (c : Dev nD) (k : Fin 8192) :
    Cert.KernelIdeal.Pass2.prodSum A B (tr (bkgV m c)) (ix2 k (0 : Fin 1)) = ∑ j, A' k j * B' k j * bkg (col (argT m c)) j := by
  show Cert.KernelIdeal.Pass2.prodSumAt A B (tr (bkgV m c)) k = _
  unfold Cert.KernelIdeal.Pass2.prodSumAt
  refine Finset.sum_congr rfl fun j _ => ?_
  rw [tr_apply, hA, hB, bkgV_apply]

/-- … divided by the count: the weighted mean of the product over the second event. -/
theorem pavg_apply (A B A' B' : Fin 8192 → Fin 8192 → Ideal .f32) (hA : ∀ k j, A k j = A' k j) (hB : ∀ k j, B k j = B' k j)
    (c : Dev nD) (k : Fin 8192) :
    divN m (Cert.KernelIdeal.Pass2.prodSum A B (tr (bkgV m c))) c (ix2 k (0 : Fin 1)) = prodAvg A' B' (col (argT m c)) k := by
  rw [divN_apply, prodSum_apply m A B A' B' hA hB]
  rfl

/-! ## At the second region's exit -/

theorem W8_v23 (c : Dev nD) : @Eq (FVec Ideal S8192x1 .f32) (W8 m ρ c (Proc.devRef .tc main_v23)) (bkgV m c) :=
  (W8_of_ne m ρ c main_v23 (by decide)).trans (W7_v23 m ρ c)
theorem W8_v24 (c : Dev nD) : @Eq (FVec Ideal S_ .f32) (W8 m ρ c (Proc.devRef .tc main_v24)) (sumS (bkgV m c)) :=
  (W8_of_ne m ρ c main_v24 (by decide)).trans (W7_v24 m ρ c)
theorem W8_v20 (c : Dev nD) : @Eq (FVec Ideal S_ .f32) (W8 m ρ c (Proc.devRef .tc main_v20)) (W5 m ρ c (Proc.devRef .tc main_v20)) :=
  (W8_of_ne m ρ c main_v20 (by decide)).trans (W7_v20 m ρ c)

/-- The three result columns of the second region. -/
abbrev abV (c : Dev nD) : FVec Ideal S8192x1 .f32 :=
  Cert.KernelIdeal.Pass2.prodSum (Cert.KernelIdeal.Pass2.Amat (V7 m ρ) c) (Cert.KernelIdeal.Pass2.Bmat (V7 m ρ) c) (tr (bkgV m c))
abbrev aaV (c : Dev nD) : FVec Ideal S8192x1 .f32 :=
  Cert.KernelIdeal.Pass2.prodSum (Cert.KernelIdeal.Pass2.Amat (V7 m ρ) c) (Cert.KernelIdeal.Pass2.Amat (V7 m ρ) c) (tr (bkgV m c))
abbrev bbV (c : Dev nD) : FVec Ideal S8192x1 .f32 :=
  Cert.KernelIdeal.Pass2.prodSum (Cert.KernelIdeal.Pass2.Bmat (V7 m ρ) c) (Cert.KernelIdeal.Pass2.Bmat (V7 m ρ) c) (tr (bkgV m c))

theorem W8_v43_0 (c : Dev nD) : @Eq (FVec Ideal S8192x1 .f32) (W8 m ρ c (Proc.devRef .tc main_v43_0)) (abV m ρ c) := by
  refine (W8_arr m ρ c 11).trans ((Cert.KernelIdeal.Pass2.final11 (V7 m ρ) c).trans ?_)
  show Cert.KernelIdeal.Pass2.prodSum _ _ (W7 m ρ c (Proc.devRef .tc main_v27)) = _
  rw [W7_v27]
theorem W8_v43_1 (c : Dev nD) : @Eq (FVec Ideal S8192x1 .f32) (W8 m ρ c (Proc.devRef .tc main_v43_1)) (aaV m ρ c) := by
  refine (W8_arr m ρ c 12).trans ((Cert.KernelIdeal.Pass2.final12 (V7 m ρ) c).trans ?_)
  show Cert.KernelIdeal.Pass2.prodSum _ _ (W7 m ρ c (Proc.devRef .tc main_v27)) = _
  rw [W7_v27]
theorem W8_v43_2 (c : Dev nD) : @Eq (FVec Ideal S8192x1 .f32) (W8 m ρ c (Proc.devRef .tc main_v43_2)) (bbV m ρ c) := by
  refine (W8_arr m ρ c 13).trans ((Cert.KernelIdeal.Pass2.final13 (V7 m ρ) c).trans ?_)
  show Cert.KernelIdeal.Pass2.prodSum _ _ (W7 m ρ c (Proc.devRef .tc main_v27)) = _
  rw [W7_v27]

/-! ## The result -/

/-- The last stretch, unfolded at one buffer. -/
macro "w9_read" : tactic =>
  `(tactic| (show StableHlo.after hostOps2 (W8 _ _ _) _ = _
             dsimp only [hostOps2]
             after_results_simp
             try rfl))

/-- The result buffer after the run, as the host's operations of the second region's exit contents. -/
theorem W9_v63 (c : Dev nD) : @Eq (FVec Ideal S_ .f32) (W9 m ρ c (Proc.devRef .tc main_v63))
    (addf (W5 m ρ c (Proc.devRef .tc main_v20)) (mulf (constant (F := Ideal) S_ .f32 0x41200000#32)
      (Host.divf (meanV m (divN m (abV m ρ c) c) c)
        (Host.sqrt (mulf (meanV m (divN m (aaV m ρ c) c) c) (meanV m (divN m (bbV m ρ c) c) c)))))) := by
  have e : @Eq (FVec Ideal S_ .f32) (W9 m ρ c (Proc.devRef .tc main_v63))
      (addf (W8 m ρ c (Proc.devRef .tc main_v20)) (mulf (constant (F := Ideal) S_ .f32 0x41200000#32)
        (Host.divf
          (Host.divf (sumS (mulf (Host.divf (W8 m ρ c (Proc.devRef .tc main_v43_0)) (spread (W8 m ρ c (Proc.devRef .tc main_v24))))
            (W8 m ρ c (Proc.devRef .tc main_v23)))) (W8 m ρ c (Proc.devRef .tc main_v24)))
          (Host.sqrt (mulf
            (Host.divf (sumS (mulf (Host.divf (W8 m ρ c (Proc.devRef .tc main_v43_1)) (spread (W8 m ρ c (Proc.devRef .tc main_v24))))
              (W8 m ρ c (Proc.devRef .tc main_v23)))) (W8 m ρ c (Proc.devRef .tc main_v24)))
            (Host.divf (sumS (mulf (Host.divf (W8 m ρ c (Proc.devRef .tc main_v43_2)) (spread (W8 m ρ c (Proc.devRef .tc main_v24))))
              (W8 m ρ c (Proc.devRef .tc main_v23)))) (W8 m ρ c (Proc.devRef .tc main_v24)))))))) := by w9_read
  rw [e, W8_v20, W8_v24, W8_v23, W8_v43_0, W8_v43_1, W8_v43_2]

/-- THE KERNEL'S VALUE: its result, at its one index, is the loss of the profiles of the three argument columns. -/
theorem kernel_value (c : Dev nD) (j : S_.Idx) :
    (W9 m ρ c (Proc.devRef .tc main_v63) : FVec Ideal S_ .f32) j = loss (col (argO m c)) (col (argT m c)) (col (argX m c)) := by
  rw [W9_v63, addf_apply, mulf_apply, hostDivf_apply, hostSqrt_apply, mulf_apply, W5_v20_apply,
    meanV_apply m _ _ (fun k => pavg_apply m _ _ _ _ (Amat_apply m ρ c) (Bmat_apply m ρ c) c k),
    meanV_apply m _ _ (fun k => pavg_apply m _ _ _ _ (Amat_apply m ρ c) (Amat_apply m ρ c) c k),
    meanV_apply m _ _ (fun k => pavg_apply m _ _ _ _ (Bmat_apply m ρ c) (Bmat_apply m ρ c) c k)]
  rfl

end Cert.KernelIdeal.Host

end
-- ==== Proof.RefValue.lean ====
/-
  The reference program's result is the loss of the three argument columns' profiles.

  The reference flattens each `[8192, 1]` argument to `[8192]`, forms the `[8192, 8192]` distance matrices by spreading a flat array
  down the rows and along the columns, and takes every mean as a host sum from `0.0` divided by the background count. Read at an
  index, stage by stage, each array is the corresponding profile of `Cert.Spec`; a host sum over axis 1 from `0.0` is the plain sum.
-/
import proofs.«144878_j38285338476743_1_alg».proof.Proof.Gen.ReferenceIdeal.Read
import proofs.«144878_j38285338476743_1_alg».proof.Proof.Spec
import proofs.«144878_j38285338476743_1_alg».proof.Proof.LibColumn
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Read Cert.Spec

open Cert.ReferenceIdeal.Gen

/-! ## Layout: a flat array spread over the square, along the columns or down the rows -/

/-- A flat array made a column and spread along the columns reads, at `(k, j)`, its entry `k`. -/
theorem colSpread_apply {α : Type} (y : S8192.Idx → α) (k j : Fin 8192) :
    broadcastInDim S8192x8192 ![0, 1] bcast_S8192x1_S8192x8192_0_1 (broadcastInDim S8192x1 ![0] bcast_S8192_S8192x1_0 y) (ix2 k j)
      = y (ix1 k) := by
  refine (broadcastInDim_apply _ bcast_S8192x1_S8192x8192_0_1 _ (ix2 k j) (ix2 k (0 : Fin 1)) (fun a => match a with
    | ⟨0, _⟩ => by show k.val = if (8192 : Nat) = 1 then 0 else k.val; rw [if_neg (by decide)]
    | ⟨1, _⟩ => by show 0 = if (1 : Nat) = 1 then 0 else j.val; rw [if_pos rfl])).trans ?_
  exact broadcastInDim_apply _ bcast_S8192_S8192x1_0 y (ix2 k (0 : Fin 1)) (ix1 k) (fun a => match a with
    | ⟨0, _⟩ => by show k.val = if (8192 : Nat) = 1 then 0 else k.val; rw [if_neg (by decide)])

/-- A flat array made a row and spread down the rows reads, at `(k, j)`, its entry `j`. -/
theorem rowSpread_apply {α : Type} (y : S8192.Idx → α) (k j : Fin 8192) :
    broadcastInDim S8192x8192 ![0, 1] bcast_S1x8192_S8192x8192_0_1 (broadcastInDim S1x8192 ![1] bcast_S8192_S1x8192_1 y) (ix2 k j)
      = y (ix1 j) := by
  refine (broadcastInDim_apply _ bcast_S1x8192_S8192x8192_0_1 _ (ix2 k j) (ix2 (0 : Fin 1) j) (fun a => match a with
    | ⟨0, _⟩ => by show 0 = if (1 : Nat) = 1 then 0 else k.val; rw [if_pos rfl]
    | ⟨1, _⟩ => by show j.val = if (8192 : Nat) = 1 then 0 else j.val; rw [if_neg (by decide)])).trans ?_
  exact broadcastInDim_apply _ bcast_S8192_S1x8192_1 y (ix2 (0 : Fin 1) j) (ix1 j) (fun a => match a with
    | ⟨0, _⟩ => by show j.val = if (8192 : Nat) = 1 then 0 else j.val; rw [if_neg (by decide)])

/-! ## Sums: a host sum from `0.0` -/

/-- The host's sum of a flat array into a scalar, from `0.0`: the `total` of the profile the array holds. -/
theorem flatTotal (c : Ideal .f32) (y : FVec Ideal S8192 .f32) (f : Prof) (hc : c = lit 0x00000000#32)
    (h : ∀ k : Fin 8192, y (ix1 k) = f k) : c + ∑ j : S8192.Idx, y j = total f := by
  rw [hc, Cert.Column.sum_flat]
  exact congrArg (lit 0x00000000#32 + ·) (Finset.sum_congr rfl fun k _ => h k)

/-- The host's sum along a row, from `0.0`: the plain sum (`0.0` is the zero of the extended reals). -/
theorem rowSum (c : Ideal .f32) (g h : Fin 8192 → Ideal .f32) (hc : c = lit 0x00000000#32) (e : ∀ j, g j = h j) :
    c + ∑ j, g j = ∑ j, h j := by
  rw [hc]
  show Ideal.ofBits .f32 0x00000000#32 + _ = _
  rw [Ideal.ofBits_zero_f32, zero_add]
  exact Finset.sum_congr rfl fun j _ => e j

/-- The index each of the five row sums reads at: row `k`, column `j`. -/
theorem rowIdx43 (k j : Fin 8192) : idx_main_v43 (ix1 k) j = ix2 k j :=
  funext fun a => match a with | ⟨0, _⟩ => rfl | ⟨1, _⟩ => rfl
theorem rowIdx49 (k j : Fin 8192) : idx_main_v49 (ix1 k) j = ix2 k j :=
  funext fun a => match a with | ⟨0, _⟩ => rfl | ⟨1, _⟩ => rfl
theorem rowIdx78 (k j : Fin 8192) : idx_main_v78 (ix1 k) j = ix2 k j :=
  funext fun a => match a with | ⟨0, _⟩ => rfl | ⟨1, _⟩ => rfl
theorem rowIdx85 (k j : Fin 8192) : idx_main_v85 (ix1 k) j = ix2 k j :=
  funext fun a => match a with | ⟨0, _⟩ => rfl | ⟨1, _⟩ => rfl
theorem rowIdx92 (k j : Fin 8192) : idx_main_v92 (ix1 k) j = ix2 k j :=
  funext fun a => match a with | ⟨0, _⟩ => rfl | ⟨1, _⟩ => rfl

section Stages

variable (o t x : FVec Ideal S8192x1 .f32)

/-! ## The flattened arguments -/

theorem v0_at (k : Fin 8192) : val_main_v0 (F := Ideal) x (ix1 k) = col x k :=
  Cert.Column.shapeCast_a1_a_apply x shapeCasts_S8192x1_S8192 k

theorem v1_at (k : Fin 8192) : val_main_v1 (F := Ideal) o (ix1 k) = col o k :=
  Cert.Column.shapeCast_a1_a_apply o shapeCasts_S8192x1_S8192 k

theorem v2_at (k : Fin 8192) : val_main_v2 (F := Ideal) t (ix1 k) = col t k :=
  Cert.Column.shapeCast_a1_a_apply t shapeCasts_S8192x1_S8192 k

/-! ## The windowed cross-entropy -/

/-- The mass window's indicator. -/
theorem v8_at (k : Fin 8192) : val_main_v8 (F := Ideal) x (ix1 k) = win (col x) k := by
  simp only [val_main_v8_apply, val_main_v7_apply, val_main_v4_apply, val_main_v6_apply, val_main_v3_apply, val_main_v5_apply,
    val_main_cst_apply, val_main_cst_0_apply, v0_at]
  rfl

/-- The cross-entropy of one event, kept inside the window. -/
theorem v20_at (k : Fin 8192) :
    val_main_v20 (F := Ideal) o t x (ix1 k) = bce (col o) (col t) k * win (col x) k := by
  simp only [val_main_v20_apply, val_main_v19_apply, val_main_v18_apply, val_main_v14_apply, val_main_v17_apply,
    val_main_v10_apply, val_main_v13_apply, val_main_v16_apply, val_main_v9_apply, val_main_v12_apply, val_main_v11_apply,
    val_main_call0_v1_apply, val_main_call0_v0_apply, val_main_cst_1_apply, val_main_call1_v1_apply, val_main_call1_v0_apply,
    val_main_cst_2_apply, val_main_v15_apply, val_main_cst_3_apply, v1_at, v2_at, v8_at]
  rfl

theorem v21_at (i : S_.Idx) :
    val_main_v21 (F := Ideal) o t x i = total fun k => bce (col o) (col t) k * win (col x) k :=
  (val_main_v21_apply o t x i).trans (flatTotal _ _ _ (val_main_cst_4_apply _) (v20_at o t x))

theorem v22_at (i : S_.Idx) : val_main_v22 (F := Ideal) x i = total (win (col x)) :=
  (val_main_v22_apply x i).trans (flatTotal _ _ _ (val_main_cst_5_apply _) (v8_at x))

/-- Its mean over the window. -/
theorem v23_at (i : S_.Idx) : val_main_v23 (F := Ideal) o t x i = bceLoss (col o) (col t) (col x) := by
  rw [val_main_v23_apply, v21_at, v22_at]
  rfl

/-! ## The background: its indicator, its count, the count spread over a flat array, the indicator spread down the rows -/

theorem v26_at (k : Fin 8192) : val_main_v26 (F := Ideal) t (ix1 k) = bkg (col t) k := by
  simp only [val_main_v26_apply, val_main_v25_apply, val_main_v24_apply, val_main_cst_6_apply, v2_at]
  rfl

theorem v27_at (i : S_.Idx) : val_main_v27 (F := Ideal) t i = cnt (col t) :=
  (val_main_v27_apply t i).trans (flatTotal _ _ _ (val_main_cst_7_apply _) (v26_at t))

theorem v44_at (i : S8192.Idx) : val_main_v44 (F := Ideal) t i = cnt (col t) := (val_main_v44_apply (F := Ideal) t i).trans (v27_at t _)
theorem v50_at (i : S8192.Idx) : val_main_v50 (F := Ideal) t i = cnt (col t) := (val_main_v50_apply (F := Ideal) t i).trans (v27_at t _)
theorem v79_at (i : S8192.Idx) : val_main_v79 (F := Ideal) t i = cnt (col t) := (val_main_v79_apply (F := Ideal) t i).trans (v27_at t _)
theorem v86_at (i : S8192.Idx) : val_main_v86 (F := Ideal) t i = cnt (col t) := (val_main_v86_apply (F := Ideal) t i).trans (v27_at t _)
theorem v93_at (i : S8192.Idx) : val_main_v93 (F := Ideal) t i = cnt (col t) := (val_main_v93_apply (F := Ideal) t i).trans (v27_at t _)

theorem v41_at (k j : Fin 8192) : val_main_v41 (F := Ideal) t (ix2 k j) = bkg (col t) j :=
  (rowSpread_apply (val_main_v26 (F := Ideal) t) k j).trans (v26_at t j)
theorem v47_at (k j : Fin 8192) : val_main_v47 (F := Ideal) t (ix2 k j) = bkg (col t) j :=
  (rowSpread_apply (val_main_v26 (F := Ideal) t) k j).trans (v26_at t j)
theorem v76_at (k j : Fin 8192) : val_main_v76 (F := Ideal) t (ix2 k j) = bkg (col t) j :=
  (rowSpread_apply (val_main_v26 (F := Ideal) t) k j).trans (v26_at t j)
theorem v83_at (k j : Fin 8192) : val_main_v83 (F := Ideal) t (ix2 k j) = bkg (col t) j :=
  (rowSpread_apply (val_main_v26 (F := Ideal) t) k j).trans (v26_at t j)
theorem v90_at (k j : Fin 8192) : val_main_v90 (F := Ideal) t (ix2 k j) = bkg (col t) j :=
  (rowSpread_apply (val_main_v26 (F := Ideal) t) k j).trans (v26_at t j)

/-! ## The distance matrices -/

theorem v33_at (k j : Fin 8192) : val_main_v33 (F := Ideal) x (ix2 k j) = dist (col x) k j := by
  have e1 : val_main_v30 (F := Ideal) x (ix2 k j) = col x k :=
    (colSpread_apply (val_main_v0 (F := Ideal) x) k j).trans (v0_at x k)
  have e2 : val_main_v31 (F := Ideal) x (ix2 k j) = col x j :=
    (rowSpread_apply (val_main_v0 (F := Ideal) x) k j).trans (v0_at x j)
  rw [val_main_v33_apply, val_main_v32_apply, e1, e2]
  rfl

theorem v39_at (k j : Fin 8192) : val_main_v39 (F := Ideal) o (ix2 k j) = dist (col o) k j := by
  have e1 : val_main_v36 (F := Ideal) o (ix2 k j) = col o k :=
    (colSpread_apply (val_main_v1 (F := Ideal) o) k j).trans (v1_at o k)
  have e2 : val_main_v37 (F := Ideal) o (ix2 k j) = col o j :=
    (rowSpread_apply (val_main_v1 (F := Ideal) o) k j).trans (v1_at o j)
  rw [val_main_v39_apply, val_main_v38_apply, e1, e2]
  rfl

/-! ## The weighted row means and their weighted means -/

theorem v45_at (k : Fin 8192) : val_main_v45 (F := Ideal) t x (ix1 k) = rowAvg (col x) (col t) k := by
  have h : val_main_v43 (F := Ideal) t x (ix1 k) = ∑ j, dist (col x) k j * bkg (col t) j := by
    refine (val_main_v43_apply t x (ix1 k)).trans (rowSum _ _ _ (val_main_cst_8_apply _) fun j => ?_)
    rw [rowIdx43, val_main_v42_apply, v33_at, v41_at]
    rfl
  rw [val_main_v45_apply, h, v44_at]
  rfl

theorem v51_at (k : Fin 8192) : val_main_v51 (F := Ideal) o t (ix1 k) = rowAvg (col o) (col t) k := by
  have h : val_main_v49 (F := Ideal) o t (ix1 k) = ∑ j, dist (col o) k j * bkg (col t) j := by
    refine (val_main_v49_apply o t (ix1 k)).trans (rowSum _ _ _ (val_main_cst_9_apply _) fun j => ?_)
    rw [rowIdx49, val_main_v48_apply, v39_at, v47_at]
    rfl
  rw [val_main_v51_apply, h, v50_at]
  rfl

theorem v54_at (i : S_.Idx) : val_main_v54 (F := Ideal) t x i = mean (rowAvg (col x) (col t)) (col t) := by
  have h : val_main_v53 (F := Ideal) t x i = total fun k => rowAvg (col x) (col t) k * bkg (col t) k :=
    (val_main_v53_apply t x i).trans (flatTotal _ _ _ (val_main_cst_10_apply _) fun k => by
      rw [val_main_v52_apply, v45_at, v26_at]
      rfl)
  rw [val_main_v54_apply, h, v27_at]
  rfl

theorem v57_at (i : S_.Idx) : val_main_v57 (F := Ideal) o t i = mean (rowAvg (col o) (col t)) (col t) := by
  have h : val_main_v56 (F := Ideal) o t i = total fun k => rowAvg (col o) (col t) k * bkg (col t) k :=
    (val_main_v56_apply o t i).trans (flatTotal _ _ _ (val_main_cst_11_apply _) fun k => by
      rw [val_main_v55_apply, v51_at, v26_at]
      rfl)
  rw [val_main_v57_apply, h, v27_at]
  rfl

/-! ## The doubly centred distances -/

theorem v65_at (k j : Fin 8192) : val_main_v65 (F := Ideal) t x (ix2 k j) = cen (col x) (col t) k j := by
  have e1 : val_main_v59 (F := Ideal) t x (ix2 k j) = rowAvg (col x) (col t) j :=
    (rowSpread_apply (val_main_v45 (F := Ideal) t x) k j).trans (v45_at t x j)
  have e2 : val_main_v62 (F := Ideal) t x (ix2 k j) = rowAvg (col x) (col t) k :=
    (colSpread_apply (val_main_v45 (F := Ideal) t x) k j).trans (v45_at t x k)
  have e3 : val_main_v64 (F := Ideal) t x (ix2 k j) = mean (rowAvg (col x) (col t)) (col t) :=
    (val_main_v64_apply (F := Ideal) t x (ix2 k j)).trans (v54_at t x _)
  rw [val_main_v65_apply, val_main_v63_apply, val_main_v60_apply, v33_at, e1, e2, e3]
  rfl

theorem v73_at (k j : Fin 8192) : val_main_v73 (F := Ideal) o t (ix2 k j) = cen (col o) (col t) k j := by
  have e1 : val_main_v67 (F := Ideal) o t (ix2 k j) = rowAvg (col o) (col t) j :=
    (rowSpread_apply (val_main_v51 (F := Ideal) o t) k j).trans (v51_at o t j)
  have e2 : val_main_v70 (F := Ideal) o t (ix2 k j) = rowAvg (col o) (col t) k :=
    (colSpread_apply (val_main_v51 (F := Ideal) o t) k j).trans (v51_at o t k)
  have e3 : val_main_v72 (F := Ideal) o t (ix2 k j) = mean (rowAvg (col o) (col t)) (col t) :=
    (val_main_v72_apply (F := Ideal) o t (ix2 k j)).trans (v57_at o t _)
  rw [val_main_v73_apply, val_main_v71_apply, val_main_v68_apply, v39_at, e1, e2, e3]
  rfl

/-! ## The weighted row means of the three products -/

theorem v80_at (k : Fin 8192) :
    val_main_v80 (F := Ideal) o t x (ix1 k) = prodAvg (cen (col x) (col t)) (cen (col o) (col t)) (col t) k := by
  have h : val_main_v78 (F := Ideal) o t x (ix1 k)
      = ∑ j, cen (col x) (col t) k j * cen (col o) (col t) k j * bkg (col t) j := by
    refine (val_main_v78_apply o t x (ix1 k)).trans (rowSum _ _ _ (val_main_cst_12_apply _) fun j => ?_)
    rw [rowIdx78, val_main_v77_apply, val_main_v74_apply, v65_at, v73_at, v76_at]
    rfl
  rw [val_main_v80_apply, h, v79_at]
  rfl

theorem v87_at (k : Fin 8192) :
    val_main_v87 (F := Ideal) t x (ix1 k) = prodAvg (cen (col x) (col t)) (cen (col x) (col t)) (col t) k := by
  have h : val_main_v85 (F := Ideal) t x (ix1 k)
      = ∑ j, cen (col x) (col t) k j * cen (col x) (col t) k j * bkg (col t) j := by
    refine (val_main_v85_apply t x (ix1 k)).trans (rowSum _ _ _ (val_main_cst_13_apply _) fun j => ?_)
    rw [rowIdx85, val_main_v84_apply, val_main_v81_apply, v65_at, v83_at]
    rfl
  rw [val_main_v87_apply, h, v86_at]
  rfl

theorem v94_at (k : Fin 8192) :
    val_main_v94 (F := Ideal) o t (ix1 k) = prodAvg (cen (col o) (col t)) (cen (col o) (col t)) (col t) k := by
  have h : val_main_v92 (F := Ideal) o t (ix1 k)
      = ∑ j, cen (col o) (col t) k j * cen (col o) (col t) k j * bkg (col t) j := by
    refine (val_main_v92_apply o t (ix1 k)).trans (rowSum _ _ _ (val_main_cst_14_apply _) fun j => ?_)
    rw [rowIdx92, val_main_v91_apply, val_main_v88_apply, v73_at, v90_at]
    rfl
  rw [val_main_v94_apply, h, v93_at]
  rfl

/-! ## Their weighted means -/

theorem v97_at (i : S_.Idx) :
    val_main_v97 (F := Ideal) o t x i = mean (prodAvg (cen (col x) (col t)) (cen (col o) (col t)) (col t)) (col t) := by
  have h : val_main_v96 (F := Ideal) o t x i
      = total fun k => prodAvg (cen (col x) (col t)) (cen (col o) (col t)) (col t) k * bkg (col t) k :=
    (val_main_v96_apply o t x i).trans (flatTotal _ _ _ (val_main_cst_15_apply _) fun k => by
      rw [val_main_v95_apply, v80_at, v26_at]
      rfl)
  rw [val_main_v97_apply, h, v27_at]
  rfl

theorem v100_at (i : S_.Idx) :
    val_main_v100 (F := Ideal) t x i = mean (prodAvg (cen (col x) (col t)) (cen (col x) (col t)) (col t)) (col t) := by
  have h : val_main_v99 (F := Ideal) t x i
      = total fun k => prodAvg (cen (col x) (col t)) (cen (col x) (col t)) (col t) k * bkg (col t) k :=
    (val_main_v99_apply t x i).trans (flatTotal _ _ _ (val_main_cst_16_apply _) fun k => by
      rw [val_main_v98_apply, v87_at, v26_at]
      rfl)
  rw [val_main_v100_apply, h, v27_at]
  rfl

theorem v103_at (i : S_.Idx) :
    val_main_v103 (F := Ideal) o t i = mean (prodAvg (cen (col o) (col t)) (cen (col o) (col t)) (col t)) (col t) := by
  have h : val_main_v102 (F := Ideal) o t i
      = total fun k => prodAvg (cen (col o) (col t)) (cen (col o) (col t)) (col t) k * bkg (col t) k :=
    (val_main_v102_apply o t i).trans (flatTotal _ _ _ (val_main_cst_17_apply _) fun k => by
      rw [val_main_v101_apply, v94_at, v26_at]
      rfl)
  rw [val_main_v103_apply, h, v27_at]
  rfl

/-- The distance correlation, times ten. -/
theorem v107_at (i : S_.Idx) :
    val_main_v107 (F := Ideal) o t x i = lit 0x41200000#32 * disco (col x) (col o) (col t) := by
  rw [val_main_v107_apply, val_main_v106_apply, val_main_v105_apply, val_main_v104_apply, val_main_cst_18_apply,
    v97_at, v100_at, v103_at]
  rfl

end Stages

/-- The reference's result, at its one index, is the loss of the profiles of its three argument columns
    (`o` = argument 0, the network output; `t` = argument 1, the target; `x` = argument 2, the mass). -/
theorem result_eq (o t x : FVec Ideal S8192x1 .f32) :
    val_main_v108 (F := Ideal) o t x ix0 = loss (col o) (col t) (col x) := by
  rw [val_main_v108_apply, v23_at, v107_at]
  rfl

end Cert.ReferenceIdeal.RefValue

end
-- ==== Proof.lean ====
/-
  The certificate: a windowed binary cross-entropy plus ten times a background distance correlation, computed by a kernel program of
  two tiled regions among host operations and by a plain host reference, are the same extended real.

  The mathematics is in `Proof/Spec.lean`: over the profiles `o`, `t`, `x` of the three argument columns,
  `loss = bceLoss + 10 · mean(A·B) / sqrt(mean(A·A) · mean(B·B))` with `A`, `B` the doubly centred distance matrices of `x` and `o` over the
  background events. The kernel program computes the `[8192, 8192]` matrices 128 rows at a time: its first region leaves the weighted
  row sums of the distances (`Proof/Pass1Value.lean`), its second the weighted row sums of the products of centred distances
  (`Proof/Pass2Value.lean`), and the host operations around them the counts, means and the final quotient (`Proof/HostBefore.lean`,
  `Proof/HostBetween.lean`, `Proof/HostAfter.lean`: the result buffer is `loss`). The reference forms the matrices whole
  (`Proof/RefValue.lean`: its result is `loss` too). The two differ only in how sums are indexed — a column `[8192, 1]` against a flat
  `[8192]`, a lane sum of a 128-row block against a host sum over axis 1 — so no law beyond re-indexing a finite sum is used, and the
  finiteness of the inputs is never opened.

  The three frames are the generated ones (the reference's is its generated run with the result dropped); the idealization rewrote
  nothing, so `preserves` is trivial.
-/
import proofs.«144878_j38285338476743_1_alg».proof.Defs
import proofs.«144878_j38285338476743_1_alg».proof.Proof.Gen.Kernel
import proofs.«144878_j38285338476743_1_alg».proof.Proof.Gen.Kernel.Skeleton
import proofs.«144878_j38285338476743_1_alg».proof.Proof.Gen.Kernel.Launch
import proofs.«144878_j38285338476743_1_alg».proof.Proof.Gen.Kernel.Points
import proofs.«144878_j38285338476743_1_alg».proof.Proof.Gen.Kernel.Frame
import proofs.«144878_j38285338476743_1_alg».proof.Proof.Gen.KernelIdeal
import proofs.«144878_j38285338476743_1_alg».proof.Proof.Gen.KernelIdeal.Skeleton
import proofs.«144878_j38285338476743_1_alg».proof.Proof.Gen.KernelIdeal.Launch
import proofs.«144878_j38285338476743_1_alg».proof.Proof.Gen.KernelIdeal.Points
import proofs.«144878_j38285338476743_1_alg».proof.Proof.Gen.KernelIdeal.Frame
import proofs.«144878_j38285338476743_1_alg».proof.Proof.Gen.ReferenceIdeal
import proofs.«144878_j38285338476743_1_alg».proof.Proof.Gen.ReferenceIdeal.Run
import proofs.«144878_j38285338476743_1_alg».proof.Proof.Gen.ReferenceIdeal.Read
import proofs.«144878_j38285338476743_1_alg».proof.Proof.Gen.Pre_finite_inputs
import proofs.«144878_j38285338476743_1_alg».proof.Proof.KernelRun
import proofs.«144878_j38285338476743_1_alg».proof.Proof.HostAfter
import proofs.«144878_j38285338476743_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames and the idealization -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-! ## The two results are one value -/

/-- The kernel program's result buffer holds the loss of its arguments' profiles, at its one index. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W9 m ρ c (Proc.devRef .tc Cert.KernelIdeal.main_v63) : FVec Ideal Cert.KernelIdeal.S_ .f32)
      = fun _ => Cert.Spec.loss (Cert.Spec.col (Cert.KernelIdeal.Host.argO m c)) (Cert.Spec.col (Cert.KernelIdeal.Host.argT m c))
          (Cert.Spec.col (Cert.KernelIdeal.Host.argX m c)) :=
  funext fun j => Cert.KernelIdeal.Host.kernel_value m ρ c j

/-- The reference's last stage holds the loss of its arguments' profiles, at its one index. -/
theorem reference_result (o t x : FVec Ideal Cert.ReferenceIdeal.S8192x1 .f32) :
    Cert.ReferenceIdeal.Read.val_main_v108 (F := Ideal) o t x
      = fun _ => Cert.Spec.loss (Cert.Spec.col o) (Cert.Spec.col t) (Cert.Spec.col x) :=
  funext fun j => by rw [eq_ix0 j]; exact Cert.ReferenceIdeal.RefValue.result_eq o t x

/-- At the ideal instance, from memories agreeing on the three arguments, the kernel program's result buffer and the reference's
    end at the same extended real: the loss of the arguments' profiles. -/
theorem algebraic : Cert.algebraic_KernelIdeal_ReferenceIdeal := by
  intro m ρ m' ρ' _ hagree
  refine ⟨fun c => Cert.KernelIdeal.Gen.W9 m ρ c (Proc.devRef .tc Cert.KernelIdeal.main_v63),
    Cert.KernelIdeal.Run.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq, (hagree c).1, (hagree c).2.1, (hagree c).2.2]
  exact (reference_result _ _ _).trans (kernel_result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
